-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000 : Shape := ⟨1, ![1250000]⟩
abbrev S64x100 : Shape := ⟨2, ![64, 100]⟩
abbrev S100 : Shape := ⟨1, ![100]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000 : S_.BroadcastsInDim S1250000 (![] : Fin 0 → Fin S1250000.rank)
  reducesTo_S1250000_S_d0 : S1250000.ReducesTo [0] S_
  bcast_S_S64x100 : S_.BroadcastsInDim S64x100 (![] : Fin 0 → Fin S64x100.rank)
  reducesTo_S64x100_S_d0_1 : S64x100.ReducesTo [0, 1] S_
  bcast_S_S100 : S_.BroadcastsInDim S100 (![] : Fin 0 → Fin S100.rank)
  reducesTo_S100_S_d0 : S100.ReducesTo [0] S_

variable [Facts]

def fn_part3 {F : FTy → Type} [FloatOps F] (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  main_v53

def fn_part2 {F : FTy → Type} [FloatOps F] (main_arg8 : FVec F S64x100 .f32) (main_arg9 : FVec F S64x100 .f32) (main_arg10 : FVec F S64x100 .f32) (main_arg11 : FVec F S100 .f32) (main_v33 : IVec S_ 1) : IVec S_ 1 :=
  let main_v34 : FVec F S64x100 .f32 := Host.absf main_arg8
  let main_cst_12 : FVec F S_ .f32 := constant S_ .f32 0x7F800000#32
  let main_v35 : FVec F S64x100 .f32 := broadcastInDim S64x100 ![] bcast_S_S64x100 main_cst_12
  let main_v36 : IVec S64x100 1 := cmpf .olt main_v34 main_v35
  let main_c_13 : IVec S_ 1 := constantI S_ 1 1#1
  let main_v37 : IVec S_ 1 := (fun x v => Host.reduce IntOp.andi x v reducesTo_S64x100_S_d0_1 h_S_) main_v36 main_c_13
  let main_v38 : IVec S_ 1 := andi main_v33 main_v37
  let main_v39 : FVec F S64x100 .f32 := Host.absf main_arg9
  let main_cst_14 : FVec F S_ .f32 := constant S_ .f32 0x7F800000#32
  let main_v40 : FVec F S64x100 .f32 := broadcastInDim S64x100 ![] bcast_S_S64x100 main_cst_14
  let main_v41 : IVec S64x100 1 := cmpf .olt main_v39 main_v40
  let main_c_15 : IVec S_ 1 := constantI S_ 1 1#1
  let main_v42 : IVec S_ 1 := (fun x v => Host.reduce IntOp.andi x v reducesTo_S64x100_S_d0_1 h_S_) main_v41 main_c_15
  let main_v43 : IVec S_ 1 := andi main_v38 main_v42
  let main_v44 : FVec F S64x100 .f32 := Host.absf main_arg10
  let main_cst_16 : FVec F S_ .f32 := constant S_ .f32 0x7F800000#32
  let main_v45 : FVec F S64x100 .f32 := broadcastInDim S64x100 ![] bcast_S_S64x100 main_cst_16
  let main_v46 : IVec S64x100 1 := cmpf .olt main_v44 main_v45
  let main_c_17 : IVec S_ 1 := constantI S_ 1 1#1
  let main_v47 : IVec S_ 1 := (fun x v => Host.reduce IntOp.andi x v reducesTo_S64x100_S_d0_1 h_S_) main_v46 main_c_17
  let main_v48 : IVec S_ 1 := andi main_v43 main_v47
  let main_v49 : FVec F S100 .f32 := Host.absf main_arg11
  let main_cst_18 : FVec F S_ .f32 := constant S_ .f32 0x7F800000#32
  let main_v50 : FVec F S100 .f32 := broadcastInDim S100 ![] bcast_S_S100 main_cst_18
  fn_part3 (F := F) main_v48 main_v49 main_v50

def fn_part1 {F : FTy → Type} [FloatOps F] (main_arg5 : FVec F S64x100 .f32) (main_arg6 : FVec F S64x100 .f32) (main_arg7 : FVec F S100 .f32) (main_arg8 : FVec F S64x100 .f32) (main_arg9 : FVec F S64x100 .f32) (main_arg10 : FVec F S64x100 .f32) (main_arg11 : FVec F S100 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S64x100 .f32 := Host.absf main_arg5
  let main_cst_6 : FVec F S_ .f32 := constant S_ .f32 0x7F800000#32
  let main_v20 : FVec F S64x100 .f32 := broadcastInDim S64x100 ![] bcast_S_S64x100 main_cst_6
  let main_v21 : IVec S64x100 1 := cmpf .olt main_v19 main_v20
  let main_c_7 : IVec S_ 1 := constantI S_ 1 1#1
  let main_v22 : IVec S_ 1 := (fun x v => Host.reduce IntOp.andi x v reducesTo_S64x100_S_d0_1 h_S_) main_v21 main_c_7
  let main_v23 : IVec S_ 1 := andi main_v18 main_v22
  let main_v24 : FVec F S64x100 .f32 := Host.absf main_arg6
  let main_cst_8 : FVec F S_ .f32 := constant S_ .f32 0x7F800000#32
  let main_v25 : FVec F S64x100 .f32 := broadcastInDim S64x100 ![] bcast_S_S64x100 main_cst_8
  let main_v26 : IVec S64x100 1 := cmpf .olt main_v24 main_v25
  let main_c_9 : IVec S_ 1 := constantI S_ 1 1#1
  let main_v27 : IVec S_ 1 := (fun x v => Host.reduce IntOp.andi x v reducesTo_S64x100_S_d0_1 h_S_) main_v26 main_c_9
  let main_v28 : IVec S_ 1 := andi main_v23 main_v27
  let main_v29 : FVec F S100 .f32 := Host.absf main_arg7
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1250000 32) (main_arg2 : FVec F S1250000 .f32) (main_arg3 : FVec F S64x100 .f32) (main_arg4 : FVec F S100 .f32) (main_arg5 : FVec F S64x100 .f32) (main_arg6 : FVec F S64x100 .f32) (main_arg7 : FVec F S100 .f32) (main_arg8 : FVec F S64x100 .f32) (main_arg9 : FVec F S64x100 .f32) (main_arg10 : FVec F S64x100 .f32) (main_arg11 : FVec F S100 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000 .f32 := Host.absf main_arg2
  let main_cst_0 : FVec F S_ .f32 := constant S_ .f32 0x7F800000#32
  let main_v5 : FVec F S1250000 .f32 := broadcastInDim S1250000 ![] bcast_S_S1250000 main_cst_0
  let main_v6 : IVec S1250000 1 := cmpf .olt main_v4 main_v5
  let main_c_1 : IVec S_ 1 := constantI S_ 1 1#1
  let main_v7 : IVec S_ 1 := (fun x v => Host.reduce IntOp.andi x v reducesTo_S1250000_S_d0 h_S_) main_v6 main_c_1
  let main_v8 : IVec S_ 1 := andi main_v3 main_v7
  let main_v9 : FVec F S64x100 .f32 := Host.absf main_arg3
  let main_cst_2 : FVec F S_ .f32 := constant S_ .f32 0x7F800000#32
  let main_v10 : FVec F S64x100 .f32 := broadcastInDim S64x100 ![] bcast_S_S64x100 main_cst_2
  let main_v11 : IVec S64x100 1 := cmpf .olt main_v9 main_v10
  let main_c_3 : IVec S_ 1 := constantI S_ 1 1#1
  let main_v12 : IVec S_ 1 := (fun x v => Host.reduce IntOp.andi x v reducesTo_S64x100_S_d0_1 h_S_) main_v11 main_c_3
  let main_v13 : IVec S_ 1 := andi main_v8 main_v12
  let main_v14 : FVec F S100 .f32 := Host.absf main_arg4
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1250000 : Shape := ⟨2, ![2, 1250000]⟩
abbrev S1250000 : Shape := ⟨1, ![1250000]⟩
abbrev S64x100 : Shape := ⟨2, ![64, 100]⟩
abbrev S100 : Shape := ⟨1, ![100]⟩
abbrev S1x1250000 : Shape := ⟨2, ![1, 1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S64x300 : Shape := ⟨2, ![64, 300]⟩
abbrev S300 : Shape := ⟨1, ![300]⟩
abbrev S1x300 : Shape := ⟨2, ![1, 300]⟩
abbrev S100000x300 : Shape := ⟨2, ![100000, 300]⟩
abbrev S4000x64 : Shape := ⟨2, ![4000, 64]⟩
abbrev S4000x300 : Shape := ⟨2, ![4000, 300]⟩

abbrev nBuf : Space → Nat
  | .hbm => 100
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000, .f32⟩
  | .hbm, ⟨3, _⟩ => ⟨S64x100, .f32⟩
  | .hbm, ⟨4, _⟩ => ⟨S100, .f32⟩
  | .hbm, ⟨5, _⟩ => ⟨S64x100, .f32⟩
  | .hbm, ⟨6, _⟩ => ⟨S64x100, .f32⟩
  | .hbm, ⟨7, _⟩ => ⟨S100, .f32⟩
  | .hbm, ⟨8, _⟩ => ⟨S64x100, .f32⟩
  | .hbm, ⟨9, _⟩ => ⟨S64x100, .f32⟩
  | .hbm, ⟨10, _⟩ => ⟨S64x100, .f32⟩
  | .hbm, ⟨11, _⟩ => ⟨S100, .f32⟩
  | .hbm, ⟨12, _⟩ => ⟨S1x1250000, .i32⟩
  | .hbm, ⟨13, _⟩ => ⟨S1250000, .i32⟩
  | .hbm, ⟨14, _⟩ => ⟨S1x1250000, .i32⟩
  | .hbm, ⟨15, _⟩ => ⟨S1250000, .i32⟩
  | .hbm, ⟨16, _⟩ => ⟨S_, .f32⟩
  | .hbm, ⟨17, _⟩ => ⟨S100000, .f32⟩
  | .hbm, ⟨18, _⟩ => ⟨S1250000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1250000, .i32⟩
  | .hbm, ⟨37, _⟩ => ⟨S1250000, .i1⟩
  | .hbm, ⟨38, _⟩ => ⟨S_, .i32⟩
  | .hbm, ⟨39, _⟩ => ⟨S1250000, .i32⟩
  | .hbm, ⟨40, _⟩ => ⟨S1250000, .i32⟩
  | .hbm, ⟨41, _⟩ => ⟨S1250000, .i32⟩
  | .hbm, ⟨42, _⟩ => ⟨S1250000x1, .i32⟩
  | .hbm, ⟨43, _⟩ => ⟨S1250000, .f32⟩
  | .hbm, ⟨44, _⟩ => ⟨S1250000, .f32⟩
  | .hbm, ⟨45, _⟩ => ⟨S1250000, .f32⟩
  | .hbm, ⟨46, _⟩ => ⟨S_, .i32⟩
  | .hbm, ⟨47, _⟩ => ⟨S1250000, .i32⟩
  | .hbm, ⟨48, _⟩ => ⟨S1250000, .i1⟩
  | .hbm, ⟨49, _⟩ => ⟨S_, .i32⟩
  | .hbm, ⟨50, _⟩ => ⟨S1250000, .i32⟩
  | .hbm, ⟨51, _⟩ => ⟨S1250000, .i32⟩
  | .hbm, ⟨52, _⟩ => ⟨S1250000, .i32⟩
  | .hbm, ⟨53, _⟩ => ⟨S1250000x1, .i32⟩
  | .hbm, ⟨54, _⟩ => ⟨S1250000, .f32⟩
  | .hbm, ⟨55, _⟩ => ⟨S1250000, .f32⟩
  | .hbm, ⟨56, _⟩ => ⟨S_, .i32⟩
  | .hbm, ⟨57, _⟩ => ⟨S1250000, .i32⟩
  | .hbm, ⟨58, _⟩ => ⟨S1250000, .i1⟩
  | .hbm, ⟨59, _⟩ => ⟨S_, .i32⟩
  | .hbm, ⟨60, _⟩ => ⟨S1250000, .i32⟩
  | .hbm, ⟨61, _⟩ => ⟨S1250000, .i32⟩
  | .hbm, ⟨62, _⟩ => ⟨S1250000, .i32⟩
  | .hbm, ⟨63, _⟩ => ⟨S1250000x1, .i32⟩
  | .hbm, ⟨64, _⟩ => ⟨S1250000x64, .f32⟩
  | .hbm, ⟨65, _⟩ => ⟨S1250000x1, .f32⟩
  | .hbm, ⟨66, _⟩ => ⟨S1250000x64, .f32⟩
  | .hbm, ⟨67, _⟩ => ⟨S1250000x64, .f32⟩
  | .hbm, ⟨68, _⟩ => ⟨S_, .f32⟩
  | .hbm, ⟨69, _⟩ => ⟨S100000x64, .f32⟩
  | .hbm, ⟨70, _⟩ => ⟨S1250000x1, .i32⟩
  | .hbm, ⟨71, _⟩ => ⟨S100000x64, .f32⟩
  | .hbm, ⟨72, _⟩ => ⟨S_, .i32⟩
  | .hbm, ⟨73, _⟩ => ⟨S1250000, .i32⟩
  | .hbm, ⟨74, _⟩ => ⟨S1250000, .i1⟩
  | .hbm, ⟨75, _⟩ => ⟨S_, .i32⟩
  | .hbm, ⟨76, _⟩ => ⟨S1250000, .i32⟩
  | .hbm, ⟨77, _⟩ => ⟨S1250000, .i32⟩
  | .hbm, ⟨78, _⟩ => ⟨S1250000, .i32⟩
  | .hbm, ⟨79, _⟩ => ⟨S1250000x1, .i32⟩
  | .hbm, ⟨80, _⟩ => ⟨S1250000x64, .f32⟩
  | .hbm, ⟨81, _⟩ => ⟨S1250000x1, .f32⟩
  | .hbm, ⟨82, _⟩ => ⟨S1250000x64, .f32⟩
  | .hbm, ⟨83, _⟩ => ⟨S1250000x64, .f32⟩
  | .hbm, ⟨84, _⟩ => ⟨S_, .f32⟩
  | .hbm, ⟨85, _⟩ => ⟨S100000x64, .f32⟩
  | .hbm, ⟨86, _⟩ => ⟨S1250000x1, .i32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S64x100, .f32⟩
  | .hbm, ⟨94, _⟩ => ⟨S64x300, .f32⟩
  | .hbm, ⟨95, _⟩ => ⟨S64x300, .f32⟩
  | .hbm, ⟨96, _⟩ => ⟨S64x300, .f32⟩
  | .hbm, ⟨97, _⟩ => ⟨S300, .f32⟩
  | .hbm, ⟨98, _⟩ => ⟨S1x300, .f32⟩
  | .hbm, ⟨99, _⟩ => ⟨S100000x300, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S64x300, .f32⟩
  | .local _ .vmem, ⟨7, _⟩ => ⟨S64x300, .f32⟩
  | .local _ .vmem, ⟨8, _⟩ => ⟨S64x300, .f32⟩
  | .local _ .vmem, ⟨9, _⟩ => ⟨S1x300, .f32⟩
  | .local _ .vmem, ⟨10, _⟩ => ⟨S4000x300, .f32⟩
  | .local _ .vmem, ⟨11, _⟩ => ⟨S4000x300, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_12 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_13 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_14 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x300 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x300 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S100000 : S_.BroadcastsInDim S100000 (![] : Fin 0 → Fin S100000.rank)
  bcast_S1250000_S1250000x1_0 : S1250000.BroadcastsInDim S1250000x1 (![0] : Fin 1 → Fin S1250000x1.rank)
  bcast_S_S1250000 : S_.BroadcastsInDim S1250000 (![] : Fin 0 → Fin S1250000.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S_S64x100 : S_.BroadcastsInDim S64x100 (![] : Fin 0 → Fin S64x100.rank)
  concatenates_S64x100_S64x100_S64x100_S64x300_d1 : Shape.Concatenates [S64x100, S64x100, S64x100] S64x300 1
  concatenates_S100_S100_S100_S300_d0 : Shape.Concatenates [S100, S100, S100] S300 0
  shapeCasts_S300_S1x300 : S300.ShapeCasts S1x300
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  shapeCasts_S4000x64_S4000x64 : S4000x64.ShapeCasts S4000x64
  inb_S64x300_S64x300_0_0 : ∀ a, (![0, 0] : Fin 2 → Nat) a + S64x300.size a ≤ S64x300.size a
  h_S64x300 : 0 < S64x300.numel
  shapeCasts_S64x300_S64x300 : S64x300.ShapeCasts S64x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S4000x300 : S1x300.Broadcasts S4000x300
  inb_S4000x300_S4000x300_0_0 : ∀ a, (![0, 0] : Fin 2 → Nat) a + S4000x300.size a ≤ S4000x300.size a
  h_S4000x300 : 0 < S4000x300.numel
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S4000x64_S64x300_S4000x300_1_0_0_1_n_n_wf : DotDims.WF S4000x64 S64x300 S4000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x300.size a ≤ S64x300.size a
  hwx0_3 : ∀ i : grid0.Coords, EltTy.bits .f32 = 32 ∨ (Rect.block (s := S64x300) S64x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x300.size a ≤ S64x300.size a
  hwx0_4 : ∀ i : grid0.Coords, EltTy.bits .f32 = 32 ∨ (Rect.block (s := S64x300) S64x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x300.size a ≤ S64x300.size a
  hwx0_5 : ∀ i : grid0.Coords, EltTy.bits .f32 = 32 ∨ (Rect.block (s := S64x300) S64x300.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x300.size a ≤ S1x300.size a
  hwx0_6 : ∀ i : grid0.Coords, EltTy.bits .f32 = 32 ∨ (Rect.block (s := S1x300) S1x300.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x300.size a ≤ S100000x300.size a
  hwx0_7 : ∀ i : grid0.Coords, EltTy.bits .f32 = 32 ∨ (Rect.block (s := S100000x300) S4000x300.size (cc0_transform_7 i) (hinb0_7 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S4000x64_S64x300_S4000x300_1_0_0_1_n_n : DotDims S4000x64 S64x300 S4000x300 where
  lhsContracting := [1]
  rhsContracting := [0]
  lhsNonContracting := [0]
  rhsNonContracting := [1]
  lhsBatch := []
  rhsBatch := []
  wf := dot_S4000x64_S64x300_S4000x300_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v61) S64x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62) S64x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v63) S64x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v65) S1x300.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v66) S4000x300.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000 : Shape := ⟨1, ![1250000]⟩
abbrev S64x100 : Shape := ⟨2, ![64, 100]⟩
abbrev S100 : Shape := ⟨1, ![100]⟩
abbrev S1x1250000 : Shape := ⟨2, ![1, 1250000]⟩
abbrev S_ : Shape := ⟨0, ![]⟩
abbrev S100000 : Shape := ⟨1, ![100000]⟩
abbrev S1250000x1 : Shape := ⟨2, ![1250000, 1]⟩
abbrev S100000x100 : Shape := ⟨2, ![100000, 100]⟩
abbrev S1x100 : Shape := ⟨2, ![1, 100]⟩
abbrev S1250000x64 : Shape := ⟨2, ![1250000, 64]⟩
abbrev S100000x300 : Shape := ⟨2, ![100000, 300]⟩

abbrev nBuf : Space → Nat
  | .hbm => 139
  | .vmem => 0
  | .smem => 0
  | _ => 0

abbrev hbmTy0_0 (i : Nat) : BufTy := match i % 128 with
  | 0 => ⟨S100000x64, .f32⟩
  | 1 => ⟨S2x1250000, .i32⟩
  | 2 => ⟨S1250000, .f32⟩
  | 3 => ⟨S64x100, .f32⟩
  | 4 => ⟨S100, .f32⟩
  | 5 => ⟨S64x100, .f32⟩
  | 6 => ⟨S64x100, .f32⟩
  | 7 => ⟨S100, .f32⟩
  | 8 => ⟨S64x100, .f32⟩
  | 9 => ⟨S64x100, .f32⟩
  | 10 => ⟨S64x100, .f32⟩
  | 11 => ⟨S100, .f32⟩
  | 12 => ⟨S1x1250000, .i32⟩
  | 13 => ⟨S1250000, .i32⟩
  | 14 => ⟨S1x1250000, .i32⟩
  | 15 => ⟨S1250000, .i32⟩
  | 16 => ⟨S_, .f32⟩
  | 17 => ⟨S100000, .f32⟩
  | 18 => ⟨S1250000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1250000, .i32⟩
  | 37 => ⟨S1250000, .i1⟩
  | 38 => ⟨S_, .i32⟩
  | 39 => ⟨S1250000, .i32⟩
  | 40 => ⟨S1250000, .i32⟩
  | 41 => ⟨S1250000, .i32⟩
  | 42 => ⟨S1250000x1, .i32⟩
  | 43 => ⟨S1250000, .f32⟩
  | 44 => ⟨S1250000, .f32⟩
  | 45 => ⟨S1250000, .f32⟩
  | 46 => ⟨S_, .i32⟩
  | 47 => ⟨S1250000, .i32⟩
  | 48 => ⟨S1250000, .i1⟩
  | 49 => ⟨S_, .i32⟩
  | 50 => ⟨S1250000, .i32⟩
  | 51 => ⟨S1250000, .i32⟩
  | 52 => ⟨S1250000, .i32⟩
  | 53 => ⟨S1250000x1, .i32⟩
  | 54 => ⟨S1250000, .f32⟩
  | 55 => ⟨S1250000, .f32⟩
  | 56 => ⟨S1x1250000, .i32⟩
  | 57 => ⟨S1250000, .i32⟩
  | 58 => ⟨S1x1250000, .i32⟩
  | 59 => ⟨S1250000, .i32⟩
  | 60 => ⟨S100000x100, .f32⟩
  | 61 => ⟨S1x100, .f32⟩
  | 62 => ⟨S100000x100, .f32⟩
  | 63 => ⟨S100000x100, .f32⟩
  | 64 => ⟨S1x1250000, .i32⟩
  | 65 => ⟨S1250000, .i32⟩
  | 66 => ⟨S1x1250000, .i32⟩
  | 67 => ⟨S1250000, .i32⟩
  | 68 => ⟨S100000x100, .f32⟩
  | 69 => ⟨S_, .i32⟩
  | 70 => ⟨S1250000, .i32⟩
  | 71 => ⟨S1250000, .i1⟩
  | 72 => ⟨S_, .i32⟩
  | 73 => ⟨S1250000, .i32⟩
  | 74 => ⟨S1250000, .i32⟩
  | 75 => ⟨S1250000, .i32⟩
  | 76 => ⟨S1250000x1, .i32⟩
  | 77 => ⟨S1250000x64, .f32⟩
  | 78 => ⟨S1250000x1, .f32⟩
  | 79 => ⟨S1250000x64, .f32⟩
  | 80 => ⟨S1250000x64, .f32⟩
  | 81 => ⟨S_, .f32⟩
  | 82 => ⟨S100000x64, .f32⟩
  | 83 => ⟨S1250000x1, .i32⟩
  | 84 => ⟨S100000x64, .f32⟩
  | 85 => ⟨S100000x100, .f32⟩
  | 86 => ⟨S100000x100, .f32⟩
  | 87 => ⟨S1x100, .f32⟩
  | 88 => ⟨S100000x100, .f32⟩
  | 89 => ⟨S100000x100, .f32⟩
  | 90 => ⟨S1x1250000, .i32⟩
  | 91 => ⟨S1250000, .i32⟩
  | 92 => ⟨S1x1250000, .i32⟩
  | 93 => ⟨S1250000, .i32⟩
  | 94 => ⟨S100000x100, .f32⟩
  | 95 => ⟨S_, .i32⟩
  | 96 => ⟨S1250000, .i32⟩
  | 97 => ⟨S1250000, .i1⟩
  | 98 => ⟨S_, .i32⟩
  | 99 => ⟨S1250000, .i32⟩
  | 100 => ⟨S1250000, .i32⟩
  | 101 => ⟨S1250000, .i32⟩
  | 102 => ⟨S1250000x1, .i32⟩
  | 103 => ⟨S1250000x64, .f32⟩
  | 104 => ⟨S1250000x1, .f32⟩
  | 105 => ⟨S1250000x64, .f32⟩
  | 106 => ⟨S1250000x64, .f32⟩
  | 107 => ⟨S_, .f32⟩
  | 108 => ⟨S100000x64, .f32⟩
  | 109 => ⟨S1250000x1, .i32⟩
  | 110 => ⟨S100000x64, .f32⟩
  | 111 => ⟨S100000x100, .f32⟩
  | 112 => ⟨S100000x100, .f32⟩
  | 113 => ⟨S_, .i32⟩
  | 114 => ⟨S1250000, .i32⟩
  | 115 => ⟨S1250000, .i1⟩
  | 116 => ⟨S_, .i32⟩
  | 117 => ⟨S1250000, .i32⟩
  | 118 => ⟨S1250000, .i32⟩
  | 119 => ⟨S1250000, .i32⟩
  | 120 => ⟨S1250000x1, .i32⟩
  | 121 => ⟨S1250000x64, .f32⟩
  | 122 => ⟨S1250000x1, .f32⟩
  | 123 => ⟨S1250000x64, .f32⟩
  | 124 => ⟨S1250000x64, .f32⟩
  | 125 => ⟨S_, .f32⟩
  | 126 => ⟨S100000x64, .f32⟩
  | 127 => ⟨S1250000x1, .i32⟩
  | _ => ⟨S100000x64, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S100000x64, .f32⟩
  | 5 => ⟨S100000x100, .f32⟩
  | 6 => ⟨S100000x100, .f32⟩
  | 7 => ⟨S1x100, .f32⟩
  | 8 => ⟨S100000x100, .f32⟩
  | 9 => ⟨S100000x100, .f32⟩
  | 10 => ⟨S100000x300, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_c_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_10 : Ref sig .tc := ⟨.hbm, 95, rfl⟩
abbrev main_v67 : Ref sig .tc := ⟨.hbm, 96, rfl⟩
abbrev main_v68 : Ref sig .tc := ⟨.hbm, 97, rfl⟩
abbrev main_c_11 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_12 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_13 : Ref sig .tc := ⟨.hbm, 113, rfl⟩
abbrev main_v82 : Ref sig .tc := ⟨.hbm, 114, rfl⟩
abbrev main_v83 : Ref sig .tc := ⟨.hbm, 115, rfl⟩
abbrev main_c_14 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_15 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_16 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S100000 : S_.BroadcastsInDim S100000 (![] : Fin 0 → Fin S100000.rank)
  bcast_S1250000_S1250000x1_0 : S1250000.BroadcastsInDim S1250000x1 (![0] : Fin 1 → Fin S1250000x1.rank)
  bcast_S_S1250000 : S_.BroadcastsInDim S1250000 (![] : Fin 0 → Fin S1250000.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  concatenates_S100000x100_S100000x100_S100000x100_S100000x300_d1 : Shape.Concatenates [S100000x100, S100000x100, S100000x100] S100000x300 1
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  dot_S100000x64_S64x100_S100000x100_1_0_0_1_n_n_wf : DotDims.WF S100000x64 S64x100 S100000x100 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def dot_S100000x64_S64x100_S100000x100_1_0_0_1_n_n : DotDims S100000x64 S64x100 S100000x100 where
  lhsContracting := [1]
  rhsContracting := [0]
  lhsNonContracting := [0]
  rhsNonContracting := [1]
  lhsBatch := []
  rhsBatch := []
  wf := dot_S100000x64_S64x100_S100000x100_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.K.Host.lean ====
/-
  The host side of the one pallas_call's launch. @main is five stretches of host operations — the edge list cut into its
  two rows, the degree vector by a scatter-add of the edge weights, its masked reciprocal square root, the normalised
  edge weights, the two propagated feature matrices T1 = L·x and T2 = 2·L·T1 − x (each a gather along the first row of the
  edge list, a scaling, a scatter-add along the second), and the three weight matrices [64, 300] and the bias [1, 300] put
  together by concatenation — followed by the region. The arrays the region finds are the fold of those operations
  over the launch memory; no operation writes an argument, so each argument is found as launched. A window's block at a
  grid point is that fold read through the window's rectangle.
-/
import proofs.«178984_j27462020891070_1_alg».proof.Proof.Gen.Kernel.Launch
import proofs.«178984_j27462020891070_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the host operations' fold over the launch memory. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is its host operations, which allocate nothing, and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes the buffer `b`: every operation's one result is another buffer. -/
local macro "unwritten " b:term : tactic => `(tactic|
  exact StableHlo.after_of_forall_not_mem (b := Proc.devRef .tc $b) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide))))

theorem V_main_arg0 (c : Dev nD) : V m c main_arg0 = m ((c : Thread nD τ).loc main_arg0) := by unwritten main_arg0
theorem V_main_arg1 (c : Dev nD) : V m c main_arg1 = m ((c : Thread nD τ).loc main_arg1) := by unwritten main_arg1
theorem V_main_arg2 (c : Dev nD) : V m c main_arg2 = m ((c : Thread nD τ).loc main_arg2) := by unwritten main_arg2
theorem V_main_arg3 (c : Dev nD) : V m c main_arg3 = m ((c : Thread nD τ).loc main_arg3) := by unwritten main_arg3
theorem V_main_arg4 (c : Dev nD) : V m c main_arg4 = m ((c : Thread nD τ).loc main_arg4) := by unwritten main_arg4
theorem V_main_arg5 (c : Dev nD) : V m c main_arg5 = m ((c : Thread nD τ).loc main_arg5) := by unwritten main_arg5
theorem V_main_arg6 (c : Dev nD) : V m c main_arg6 = m ((c : Thread nD τ).loc main_arg6) := by unwritten main_arg6
theorem V_main_arg7 (c : Dev nD) : V m c main_arg7 = m ((c : Thread nD τ).loc main_arg7) := by unwritten main_arg7
theorem V_main_arg8 (c : Dev nD) : V m c main_arg8 = m ((c : Thread nD τ).loc main_arg8) := by unwritten main_arg8
theorem V_main_arg9 (c : Dev nD) : V m c main_arg9 = m ((c : Thread nD τ).loc main_arg9) := by unwritten main_arg9
theorem V_main_arg10 (c : Dev nD) : V m c main_arg10 = m ((c : Thread nD τ).loc main_arg10) := by unwritten main_arg10
theorem V_main_arg11 (c : Dev nD) : V m c main_arg11 = m ((c : Thread nD τ).loc main_arg11) := by unwritten main_arg11

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data over these arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data over these arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its block index has not moved), for any proof data over these arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its block index has not moved), for any proof data over these arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its block index has not moved), for any proof data over these arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is not
    fetched its block index has not moved), for any proof data over these arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the launch -/

/-- A run that ends with every array of the pipeline at what the proof data say, and every other unscoped buffer as the
    region found it, leaves the twelve arguments as launched: `x` is the first window's array, an input, so unchanged;
    the other eleven are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

end Cert.Kernel.Hand

end
-- ==== Proof.K.Body.lean ====
/-
  The kernel body at one grid point. It loads the three row blocks [4000, 64] (of x, T1, T2), the three weight matrices
  [64, 300] and the bias row [1, 300], whole, and stores ((x·W0 + T1·W1) + T2·W2) + bias, the bias row repeated down the
  4000 rows, over the whole output block [4000, 300] (it also loads that block first, and ignores what it reads). So
  after the body the output's staging buffer holds that one value, whatever it held before, and the seven inputs' are
  as they were.
-/
import proofs.«178984_j27462020891070_1_alg».proof.Proof.Gen.Kernel.Launch
import proofs.«178984_j27462020891070_1_alg».proof.Proof.Gen.Kernel.Skeleton
import proofs.«178984_j27462020891070_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each a whole block -/

abbrev r_row : Rect S4000x64 := Rect.unit (s := S4000x64) ![0, 0] S4000x64.size inb_S4000x64_S4000x64_0_0
abbrev r_w : Rect S64x300 := Rect.unit (s := S64x300) ![0, 0] S64x300.size inb_S64x300_S64x300_0_0
abbrev r_b : Rect S1x300 := Rect.unit (s := S1x300) ![0, 0] S1x300.size inb_S1x300_S1x300_0_0
abbrev r_out : Rect S4000x300 := Rect.unit (s := S4000x300) ![0, 0] S4000x300.size inb_S4000x300_S4000x300_0_0

/-! ## What the body leaves in the output's staging buffer -/

/-- The output block after the body, from the seven input blocks: its one store, which covers it. -/
def outBlock (x0 : Vec F S4000x64 .f32) (x1 : Vec F S4000x64 .f32) (x2 : Vec F S4000x64 .f32) (x3 : Vec F S64x300 .f32) (x4 : Vec F S64x300 .f32) (x5 : Vec F S64x300 .f32) (x6 : Vec F S1x300 .f32) : Vec F S4000x300 .f32 :=
  View.canon [⟨r_out, k0_pay1 (View.ld x0 r_row) (View.ld x1 r_row) (View.ld x2 r_row) (View.ld x3 r_w) (View.ld x4 r_w) (View.ld x5 r_w) (View.ld x6 r_b)⟩]

/-- The one store's rectangle is the whole block. -/
theorem outCover (p0 : Vec F S4000x300 .f32) (y : S4000x300.Idx) :
    ∃ pc ∈ ([⟨r_out, p0⟩] : List (View.Piece (Elt F) S4000x300 .f32)), y ∈ pc.1.set :=
  View.cover_of_tiled [⟨r_out, p0⟩] S4000x300.size (by rfl) y

/-! ## The body's triple -/

set_option maxHeartbeats 1000000 in
/-- On whole staging memrefs, the inputs' at contents `x0 … x6` and the output's at anything, the body runs to the
    continuation with the inputs' as they were and the output's at `outBlock` of them. -/
theorem sound_kernel (c : Dev nD) (E : Set ℕ) (i : grid0.Coords) (arg1 : Memref sig .tc .vmem S4000x64 .f32) (harg1 : arg1.IsWhole) (arg2 : Memref sig .tc .vmem S4000x64 .f32) (harg2 : arg2.IsWhole) (arg3 : Memref sig .tc .vmem S4000x64 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S64x300 .f32) (harg6 : arg6.IsWhole) (arg7 : Memref sig .tc .vmem S1x300 .f32) (harg7 : arg7.IsWhole) (arg8 : Memref sig .tc .vmem S4000x300 .f32) (harg8 : arg8.IsWhole)
    (x0 : Vec F S4000x64 .f32) (x1 : Vec F S4000x64 .f32) (x2 : Vec F S4000x64 .f32) (x3 : Vec F S64x300 .f32) (x4 : Vec F S64x300 .f32) (x5 : Vec F S64x300 .f32) (x6 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc0__combine_kernel i arg1 harg1 arg2 harg2 arg3 harg3 arg4 harg4 arg5 harg5 arg6 harg6 arg7 harg7 arg8 harg8) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (outCover _)

end Cert.Kernel.Hand

end
-- ==== Proof.K.Frame.lean ====
/-
  The frame of the launch. The proof data: the arrays as the region finds them; after the body at a point each input's
  staging buffer still at its block, the output's at the body's value of the seven input blocks; nothing owed, full
  shares. Each input's buffer holds its block when the body is called — the three row blocks are fetched at every point,
  the weights and the bias at the first only, their block index constant — so the body's triple applies at every point,
  and the launch runs: @main terminates, faults nowhere, and leaves the twelve arguments as launched.
-/
import proofs.«178984_j27462020891070_1_alg».proof.Proof.K.Host
import proofs.«178984_j27462020891070_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected, the host fold never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlock (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data give and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and leaves its twelve arguments unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Hand

end
-- ==== Proof.KI.Host.lean ====
/-
  The host side of the one pallas_call's launch. @main is five stretches of host operations — the edge list cut into its
  two rows, the degree vector by a scatter-add of the edge weights, its masked reciprocal square root, the normalised
  edge weights, the two propagated feature matrices T1 = L·x and T2 = 2·L·T1 − x (each a gather along the first row of the
  edge list, a scaling, a scatter-add along the second), and the three weight matrices [64, 300] and the bias [1, 300] put
  together by concatenation — followed by the region. The arrays the region finds are the fold of those operations
  over the launch memory; no operation writes an argument, so each argument is found as launched. A window's block at a
  grid point is that fold read through the window's rectangle.
-/
import proofs.«178984_j27462020891070_1_alg».proof.Proof.Gen.KernelIdeal.Launch
import proofs.«178984_j27462020891070_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the host operations' fold over the launch memory. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is its host operations, which allocate nothing, and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes the buffer `b`: every operation's one result is another buffer. -/
local macro "unwritten " b:term : tactic => `(tactic|
  exact StableHlo.after_of_forall_not_mem (b := Proc.devRef .tc $b) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide))))

theorem V_main_arg0 (c : Dev nD) : V m c main_arg0 = m ((c : Thread nD τ).loc main_arg0) := by unwritten main_arg0
theorem V_main_arg1 (c : Dev nD) : V m c main_arg1 = m ((c : Thread nD τ).loc main_arg1) := by unwritten main_arg1
theorem V_main_arg2 (c : Dev nD) : V m c main_arg2 = m ((c : Thread nD τ).loc main_arg2) := by unwritten main_arg2
theorem V_main_arg3 (c : Dev nD) : V m c main_arg3 = m ((c : Thread nD τ).loc main_arg3) := by unwritten main_arg3
theorem V_main_arg4 (c : Dev nD) : V m c main_arg4 = m ((c : Thread nD τ).loc main_arg4) := by unwritten main_arg4
theorem V_main_arg5 (c : Dev nD) : V m c main_arg5 = m ((c : Thread nD τ).loc main_arg5) := by unwritten main_arg5
theorem V_main_arg6 (c : Dev nD) : V m c main_arg6 = m ((c : Thread nD τ).loc main_arg6) := by unwritten main_arg6
theorem V_main_arg7 (c : Dev nD) : V m c main_arg7 = m ((c : Thread nD τ).loc main_arg7) := by unwritten main_arg7
theorem V_main_arg8 (c : Dev nD) : V m c main_arg8 = m ((c : Thread nD τ).loc main_arg8) := by unwritten main_arg8
theorem V_main_arg9 (c : Dev nD) : V m c main_arg9 = m ((c : Thread nD τ).loc main_arg9) := by unwritten main_arg9
theorem V_main_arg10 (c : Dev nD) : V m c main_arg10 = m ((c : Thread nD τ).loc main_arg10) := by unwritten main_arg10
theorem V_main_arg11 (c : Dev nD) : V m c main_arg11 = m ((c : Thread nD τ).loc main_arg11) := by unwritten main_arg11

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data over these arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data over these arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its block index has not moved), for any proof data over these arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its block index has not moved), for any proof data over these arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its block index has not moved), for any proof data over these arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is not
    fetched its block index has not moved), for any proof data over these arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the launch -/

/-- A run that ends with every array of the pipeline at what the proof data say, and every other unscoped buffer as the
    region found it, leaves the twelve arguments as launched: `x` is the first window's array, an input, so unchanged;
    the other eleven are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

end Cert.KernelIdeal.Hand

end
-- ==== Proof.KI.Body.lean ====
/-
  The kernel body at one grid point. It loads the three row blocks [4000, 64] (of x, T1, T2), the three weight matrices
  [64, 300] and the bias row [1, 300], whole, and stores ((x·W0 + T1·W1) + T2·W2) + bias, the bias row repeated down the
  4000 rows, over the whole output block [4000, 300] (it also loads that block first, and ignores what it reads). So
  after the body the output's staging buffer holds that one value, whatever it held before, and the seven inputs' are
  as they were.
-/
import proofs.«178984_j27462020891070_1_alg».proof.Proof.Gen.KernelIdeal.Launch
import proofs.«178984_j27462020891070_1_alg».proof.Proof.Gen.KernelIdeal.Skeleton
import proofs.«178984_j27462020891070_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each a whole block -/

abbrev r_row : Rect S4000x64 := Rect.unit (s := S4000x64) ![0, 0] S4000x64.size inb_S4000x64_S4000x64_0_0
abbrev r_w : Rect S64x300 := Rect.unit (s := S64x300) ![0, 0] S64x300.size inb_S64x300_S64x300_0_0
abbrev r_b : Rect S1x300 := Rect.unit (s := S1x300) ![0, 0] S1x300.size inb_S1x300_S1x300_0_0
abbrev r_out : Rect S4000x300 := Rect.unit (s := S4000x300) ![0, 0] S4000x300.size inb_S4000x300_S4000x300_0_0

/-! ## What the body leaves in the output's staging buffer -/

/-- The output block after the body, from the seven input blocks: its one store, which covers it. -/
def outBlock (x0 : Vec F S4000x64 .f32) (x1 : Vec F S4000x64 .f32) (x2 : Vec F S4000x64 .f32) (x3 : Vec F S64x300 .f32) (x4 : Vec F S64x300 .f32) (x5 : Vec F S64x300 .f32) (x6 : Vec F S1x300 .f32) : Vec F S4000x300 .f32 :=
  View.canon [⟨r_out, k0_pay1 (View.ld x0 r_row) (View.ld x1 r_row) (View.ld x2 r_row) (View.ld x3 r_w) (View.ld x4 r_w) (View.ld x5 r_w) (View.ld x6 r_b)⟩]

/-- The one store's rectangle is the whole block. -/
theorem outCover (p0 : Vec F S4000x300 .f32) (y : S4000x300.Idx) :
    ∃ pc ∈ ([⟨r_out, p0⟩] : List (View.Piece (Elt F) S4000x300 .f32)), y ∈ pc.1.set :=
  View.cover_of_tiled [⟨r_out, p0⟩] S4000x300.size (by rfl) y

/-! ## The body's triple -/

set_option maxHeartbeats 1000000 in
/-- On whole staging memrefs, the inputs' at contents `x0 … x6` and the output's at anything, the body runs to the
    continuation with the inputs' as they were and the output's at `outBlock` of them. -/
theorem sound_kernel (c : Dev nD) (E : Set ℕ) (i : grid0.Coords) (arg1 : Memref sig .tc .vmem S4000x64 .f32) (harg1 : arg1.IsWhole) (arg2 : Memref sig .tc .vmem S4000x64 .f32) (harg2 : arg2.IsWhole) (arg3 : Memref sig .tc .vmem S4000x64 .f32) (harg3 : arg3.IsWhole) (arg4 : Memref sig .tc .vmem S64x300 .f32) (harg4 : arg4.IsWhole) (arg5 : Memref sig .tc .vmem S64x300 .f32) (harg5 : arg5.IsWhole) (arg6 : Memref sig .tc .vmem S64x300 .f32) (harg6 : arg6.IsWhole) (arg7 : Memref sig .tc .vmem S1x300 .f32) (harg7 : arg7.IsWhole) (arg8 : Memref sig .tc .vmem S4000x300 .f32) (harg8 : arg8.IsWhole)
    (x0 : Vec F S4000x64 .f32) (x1 : Vec F S4000x64 .f32) (x2 : Vec F S4000x64 .f32) (x3 : Vec F S64x300 .f32) (x4 : Vec F S64x300 .f32) (x5 : Vec F S64x300 .f32) (x6 : Vec F S1x300 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc0__combine_kernel i arg1 harg1 arg2 harg2 arg3 harg3 arg4 harg4 arg5 harg5 arg6 harg6 arg7 harg7 arg8 harg8) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (outCover _)

end Cert.KernelIdeal.Hand

end
-- ==== Proof.KI.Frame.lean ====
/-
  The frame of the launch. The proof data: the arrays as the region finds them; after the body at a point each input's
  staging buffer still at its block, the output's at the body's value of the seven input blocks; nothing owed, full
  shares. Each input's buffer holds its block when the body is called — the three row blocks are fetched at every point,
  the weights and the bias at the first only, their block index constant — so the body's triple applies at every point,
  and the launch runs: @main terminates, faults nowhere, and leaves the twelve arguments as launched.
-/
import proofs.«178984_j27462020891070_1_alg».proof.Proof.KI.Host
import proofs.«178984_j27462020891070_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected, the host fold never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlock (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data give and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and leaves its twelve arguments unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Hand

end
-- ==== Proof.KI.Payload.lean ====
/-
  The body's arithmetic at one entry of the output block. At the ideal instance rounding to bf16 is the identity and a
  matmul into the zero accumulator is the plain sum over the contracted axis, so entry (p, q) of what the body stores is
  ((Σₖ x(p,k)·w0(k,q) + Σₖ t1(p,k)·w1(k,q)) + Σₖ t2(p,k)·w2(k,q)) + b(0,q), k over the 64 input features.
-/
import proofs.«178984_j27462020891070_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic

/-! ## The [4000, 64] × [64, 300] product's operand indices -/

theorem lhs_mm_0 (i : S4000x300.Idx) (q : dot_S4000x64_S64x300_S4000x300_1_0_0_1_n_n.contr.Idx) :
    (dot_S4000x64_S64x300_S4000x300_1_0_0_1_n_n.lhsIdx i q 0).val = (i 0).val := by
  unfold DotDims.lhsIdx
  rw [dif_neg (show ¬(0 : Fin S4000x64.rank) ∈ dot_S4000x64_S64x300_S4000x300_1_0_0_1_n_n.lhsBatch by decide), dif_pos (show (0 : Fin S4000x64.rank) ∈ dot_S4000x64_S64x300_S4000x300_1_0_0_1_n_n.lhsNonContracting by decide)]
  rfl
theorem lhs_mm_1 (i : S4000x300.Idx) (q : dot_S4000x64_S64x300_S4000x300_1_0_0_1_n_n.contr.Idx) :
    (dot_S4000x64_S64x300_S4000x300_1_0_0_1_n_n.lhsIdx i q 1).val = (q ⟨0, by decide⟩).val :=
  dot_S4000x64_S64x300_S4000x300_1_0_0_1_n_n.lhsIdx_val_of_single rfl i q
theorem rhs_mm_0 (i : S4000x300.Idx) (q : dot_S4000x64_S64x300_S4000x300_1_0_0_1_n_n.contr.Idx) :
    (dot_S4000x64_S64x300_S4000x300_1_0_0_1_n_n.rhsIdx i q 0).val = (q ⟨0, by decide⟩).val :=
  dot_S4000x64_S64x300_S4000x300_1_0_0_1_n_n.rhsIdx_val_of_single rfl i q
theorem rhs_mm_1 (i : S4000x300.Idx) (q : dot_S4000x64_S64x300_S4000x300_1_0_0_1_n_n.contr.Idx) :
    (dot_S4000x64_S64x300_S4000x300_1_0_0_1_n_n.rhsIdx i q 1).val = (i 1).val := by
  unfold DotDims.rhsIdx
  rw [dif_neg (show ¬(1 : Fin S64x300.rank) ∈ dot_S4000x64_S64x300_S4000x300_1_0_0_1_n_n.rhsBatch by decide), dif_pos (show (1 : Fin S64x300.rank) ∈ dot_S4000x64_S64x300_S4000x300_1_0_0_1_n_n.rhsNonContracting by decide)]
  rfl

/-- Row `i 0`, feature `k` of a [4000, 64] block. -/
abbrev lrow (i : S4000x300.Idx) (k : Fin 64) : S4000x64.Idx := fun a => match a with
  | ⟨0, _⟩ => ⟨(i 0).val, (i 0).isLt⟩
  | ⟨1, _⟩ => ⟨k.val, k.isLt⟩
/-- Feature `k`, column `i 1` of a [64, 300] matrix. -/
abbrev rcol (i : S4000x300.Idx) (k : Fin 64) : S64x300.Idx := fun a => match a with
  | ⟨0, _⟩ => ⟨k.val, k.isLt⟩
  | ⟨1, _⟩ => ⟨(i 1).val, (i 1).isLt⟩
/-- Column `i 1` of the one bias row. -/
abbrev brow (i : S4000x300.Idx) : S1x300.Idx := fun a => match a with
  | ⟨0, _⟩ => ⟨0, Nat.zero_lt_one⟩
  | ⟨1, _⟩ => ⟨(i 1).val, (i 1).isLt⟩

/-- A product into the zero accumulator, at an entry: the sum over the 64 features. -/
theorem mm_apply (a : FVec Ideal S4000x64 .bf16) (b : FVec Ideal S64x300 .bf16) (i : S4000x300.Idx) :
    matmul dot_S4000x64_S64x300_S4000x300_1_0_0_1_n_n none a b (constant (F := Ideal) S4000x300 .f32 0x00000000#32) i = ∑ k : Fin 64, a (lrow i k) * b (rcol i k) := by
  simp only [matmul]
  rw [Ideal.matmul_constant_zero_apply, ← Equiv.sum_comp (ValueIdx.contrEquiv1 dot_S4000x64_S64x300_S4000x300_1_0_0_1_n_n 64 rfl rfl).symm]
  refine Finset.sum_congr rfl fun k _ => ?_
  have hk := ValueIdx.contrEquiv1_symm_val dot_S4000x64_S64x300_S4000x300_1_0_0_1_n_n 64 rfl rfl k
  have el : dot_S4000x64_S64x300_S4000x300_1_0_0_1_n_n.lhsIdx i ((ValueIdx.contrEquiv1 dot_S4000x64_S64x300_S4000x300_1_0_0_1_n_n 64 rfl rfl).symm k) = lrow i k := funext fun a => Fin.ext (by
    match a with
    | ⟨0, _⟩ => exact lhs_mm_0 _ _
    | ⟨1, _⟩ => exact (lhs_mm_1 _ _).trans hk)
  have er : dot_S4000x64_S64x300_S4000x300_1_0_0_1_n_n.rhsIdx i ((ValueIdx.contrEquiv1 dot_S4000x64_S64x300_S4000x300_1_0_0_1_n_n 64 rfl rfl).symm k) = rcol i k := funext fun a => Fin.ext (by
    match a with
    | ⟨0, _⟩ => exact (rhs_mm_0 _ _).trans hk
    | ⟨1, _⟩ => exact rhs_mm_1 _ _)
  rw [el, er]

/-- The bias row repeated down the rows, at an entry: the row's entry in that column. -/
theorem bias_apply (b : FVec Ideal S1x300 .f32) (i : S4000x300.Idx) :
    broadcastTo S4000x300 b broadcasts_S1x300_S4000x300 i = b (brow i) :=
  broadcastTo_apply b broadcasts_S1x300_S4000x300 i (brow i) (fun a => by
    match a with
    | ⟨0, _⟩ => rfl
    | ⟨1, _⟩ => rfl)

/-- The body's stored value at an entry. -/
theorem pay_apply (x0 x1 x2 : Vec Ideal S4000x64 .f32) (w0 w1 w2 : Vec Ideal S64x300 .f32) (b : Vec Ideal S1x300 .f32) (i : S4000x300.Idx) :
    k0_pay1 (F := Ideal) x0 x1 x2 w0 w1 w2 b i
      = ((∑ k : Fin 64, x0 (lrow i k) * w0 (rcol i k) + ∑ k : Fin 64, x1 (lrow i k) * w1 (rcol i k))
          + ∑ k : Fin 64, x2 (lrow i k) * w2 (rcol i k)) + b (brow i) := by
  unfold k0_pay1
  simp only [ValueIdx.addf_apply, mm_apply, bias_apply, ValueIdx.truncf_apply, shapeCast_self]

end Cert.KernelIdeal.Hand

end
-- ==== Proof.LibCat3.lean ====
/-
  A concatenation of three pieces of one shape, read at an index.
  Along the columns of a rank-2 array: [P0 | P1 | P2] with each piece [n, c] reads, in column j, c + j, c + c + j
  (j < c) of row r, the entry (r, j) of P0, P1, P2. Along a rank-1 array: [p0 | p1 | p2] with each piece [c] reads
  at j, c + j, c + c + j the entry j of p0, p1, p2. The extents are symbolic.
-/
import Idealize.ShloMosaic.Lib.ValueIdx
import Idealize.ShloMosaic.Lib.Pipeline.Value

noncomputable section

namespace Cert.LibCat3

open Idealize.ShloMosaic Idealize.ShloMosaic.ValueIdx

variable {α : Type}

/-! ## Three [n, c] pieces side by side -/

section Cols

variable {n c C : Nat} (p0 p1 p2 : (⟨2, ![n, c]⟩ : Shape).Idx → α)
  (h : Shape.Concatenates (([⟨⟨2, ![n, c]⟩, p0⟩, ⟨⟨2, ![n, c]⟩, p1⟩, ⟨⟨2, ![n, c]⟩, p2⟩] : List ((s : Shape) × (s.Idx → α))).map (·.1)) ⟨2, ![n, C]⟩ 1)
  (r : Fin n) (j : Fin c)

/-- Column `j` lies in the first piece. -/
theorem cols_0 (hj : j.val < C) :
    concatenate ⟨2, ![n, C]⟩ 1 [⟨⟨2, ![n, c]⟩, p0⟩, ⟨⟨2, ![n, c]⟩, p1⟩, ⟨⟨2, ![n, c]⟩, p2⟩] h (ix2 r ⟨j.val, hj⟩) = p0 (ix2 r j) :=
  concatenate_apply_piece 1 _ h _ 0 (by simp) ⟨2, ![n, c]⟩ p0 rfl rfl 0 rfl (ix2 r j)
    (fun b hb => by
      match b with
      | ⟨0, _⟩ => rfl
      | ⟨1, _⟩ => exact absurd rfl hb)
    (by show 0 + j.val = j.val; omega)

/-- Column `c + j` lies in the second piece. -/
theorem cols_1 (hj : c + j.val < C) :
    concatenate ⟨2, ![n, C]⟩ 1 [⟨⟨2, ![n, c]⟩, p0⟩, ⟨⟨2, ![n, c]⟩, p1⟩, ⟨⟨2, ![n, c]⟩, p2⟩] h (ix2 r ⟨c + j.val, hj⟩) = p1 (ix2 r j) :=
  concatenate_apply_piece 1 _ h _ 1 (by simp) ⟨2, ![n, c]⟩ p1 rfl rfl c (by simp) (ix2 r j)
    (fun b hb => by
      match b with
      | ⟨0, _⟩ => rfl
      | ⟨1, _⟩ => exact absurd rfl hb)
    (by show c + j.val = c + j.val; rfl)

/-- Column `c + c + j` lies in the third piece. -/
theorem cols_2 (hj : c + c + j.val < C) :
    concatenate ⟨2, ![n, C]⟩ 1 [⟨⟨2, ![n, c]⟩, p0⟩, ⟨⟨2, ![n, c]⟩, p1⟩, ⟨⟨2, ![n, c]⟩, p2⟩] h (ix2 r ⟨c + c + j.val, hj⟩) = p2 (ix2 r j) :=
  concatenate_apply_piece 1 _ h _ 2 (by simp) ⟨2, ![n, c]⟩ p2 rfl rfl (c + c) (by simp) (ix2 r j)
    (fun b hb => by
      match b with
      | ⟨0, _⟩ => rfl
      | ⟨1, _⟩ => exact absurd rfl hb)
    (by show c + c + j.val = c + c + j.val; rfl)

end Cols

/-! ## Three [c] pieces end to end -/

section Vec

variable {c C : Nat} (p0 p1 p2 : (⟨1, ![c]⟩ : Shape).Idx → α)
  (h : Shape.Concatenates (([⟨⟨1, ![c]⟩, p0⟩, ⟨⟨1, ![c]⟩, p1⟩, ⟨⟨1, ![c]⟩, p2⟩] : List ((s : Shape) × (s.Idx → α))).map (·.1)) ⟨1, ![C]⟩ 0)
  (j : Fin c)

theorem vec_0 (hj : j.val < C) :
    concatenate ⟨1, ![C]⟩ 0 [⟨⟨1, ![c]⟩, p0⟩, ⟨⟨1, ![c]⟩, p1⟩, ⟨⟨1, ![c]⟩, p2⟩] h (ix1 ⟨j.val, hj⟩) = p0 (ix1 j) :=
  concatenate_apply_piece 0 _ h _ 0 (by simp) ⟨1, ![c]⟩ p0 rfl rfl 0 rfl (ix1 j)
    (fun b hb => by
      match b with
      | ⟨0, _⟩ => exact absurd rfl hb)
    (by show 0 + j.val = j.val; omega)

theorem vec_1 (hj : c + j.val < C) :
    concatenate ⟨1, ![C]⟩ 0 [⟨⟨1, ![c]⟩, p0⟩, ⟨⟨1, ![c]⟩, p1⟩, ⟨⟨1, ![c]⟩, p2⟩] h (ix1 ⟨c + j.val, hj⟩) = p1 (ix1 j) :=
  concatenate_apply_piece 0 _ h _ 1 (by simp) ⟨1, ![c]⟩ p1 rfl rfl c (by simp) (ix1 j)
    (fun b hb => by
      match b with
      | ⟨0, _⟩ => exact absurd rfl hb)
    (by show c + j.val = c + j.val; rfl)

theorem vec_2 (hj : c + c + j.val < C) :
    concatenate ⟨1, ![C]⟩ 0 [⟨⟨1, ![c]⟩, p0⟩, ⟨⟨1, ![c]⟩, p1⟩, ⟨⟨1, ![c]⟩, p2⟩] h (ix1 ⟨c + c + j.val, hj⟩) = p2 (ix1 j) :=
  concatenate_apply_piece 0 _ h _ 2 (by simp) ⟨1, ![c]⟩ p2 rfl rfl (c + c) (by simp) (ix1 j)
    (fun b hb => by
      match b with
      | ⟨0, _⟩ => exact absurd rfl hb)
    (by show c + c + j.val = c + c + j.val; rfl)

end Vec

end Cert.LibCat3

end
-- ==== Proof.KI.Entry.lean ====
/-
  The algebra of the zero padding. The kernel multiplies the three feature matrices x, T1, T2 by the [64, 300] matrices
  [W10 | W20 | W30], [0 | W21 | W31], [0 | 0 | W32] and adds the row [b1 | b2 | b3]. On the extended reals a product with
  0 is 0 whatever the other factor, a sum of zeros is 0, and adding 0 changes nothing; so at row r the entry in column
  j < 100 is Σₖ x(r,k)·W10(k,j) + b1(j), in column 100 + j it is (Σₖ x·W20 + Σₖ T1·W21) + b2(j), and in column 200 + j it
  is ((Σₖ x·W30 + Σₖ T1·W31) + Σₖ T2·W32) + b3(j): the three blocks the reference computes. No finiteness is needed.
-/
import proofs.«178984_j27462020891070_1_alg».proof.Proof.Gen.KernelIdeal
import proofs.«178984_j27462020891070_1_alg».proof.Proof.LibCat3
import Idealize.ShloMosaic.PureOps.Ideal.Laws

noncomputable section

namespace Cert.KernelIdeal.Hand

open Cert.KernelIdeal Cert.KernelIdeal.Gen Idealize.ShloMosaic Idealize.ShloMosaic.ValueIdx

/-- The [64, 100] zero matrix the host builds. -/
abbrev zeroW {F : FTy → Type} [FloatOps F] : (⟨S64x100, .f32⟩ : BufTy).Contents (Elt F) :=
  broadcastInDim S64x100 ![] bcast_S_S64x100 (constant (F := F) S_ .f32 0x00000000#32)

/-- Every entry of it is the extended real 0. -/
theorem zeroW_apply (i : S64x100.Idx) : (zeroW (F := Ideal) : S64x100.Idx → EReal) i = 0 :=
  Ideal.ofBits_zero_f32

variable (x t1 t2 : (⟨S100000x64, .f32⟩ : BufTy).Contents (Elt Ideal))
  (a3 a5 a6 a8 a9 a10 : (⟨S64x100, .f32⟩ : BufTy).Contents (Elt Ideal))
  (a4 a7 a11 : (⟨S100, .f32⟩ : BufTy).Contents (Elt Ideal))

/-- [W10 | W20 | W30]. -/
abbrev wcat0 : (⟨S64x300, .f32⟩ : BufTy).Contents (Elt Ideal) :=
  concatenate S64x300 1 [⟨S64x100, a3⟩, ⟨S64x100, a5⟩, ⟨S64x100, a8⟩] concatenates_S64x100_S64x100_S64x100_S64x300_d1
/-- [0 | W21 | W31]. -/
abbrev wcat1 : (⟨S64x300, .f32⟩ : BufTy).Contents (Elt Ideal) :=
  concatenate S64x300 1 [⟨S64x100, zeroW (F := Ideal)⟩, ⟨S64x100, a6⟩, ⟨S64x100, a9⟩] concatenates_S64x100_S64x100_S64x100_S64x300_d1
/-- [0 | 0 | W32]. -/
abbrev wcat2 : (⟨S64x300, .f32⟩ : BufTy).Contents (Elt Ideal) :=
  concatenate S64x300 1 [⟨S64x100, zeroW (F := Ideal)⟩, ⟨S64x100, zeroW (F := Ideal)⟩, ⟨S64x100, a10⟩] concatenates_S64x100_S64x100_S64x100_S64x300_d1
/-- [b1 | b2 | b3] as one row. -/
abbrev bcat : (⟨S1x300, .f32⟩ : BufTy).Contents (Elt Ideal) :=
  shapeCast S1x300 (concatenate S300 0 [⟨S100, a4⟩, ⟨S100, a7⟩, ⟨S100, a11⟩] concatenates_S100_S100_S100_S300_d0) shapeCasts_S300_S1x300

/-- The kernel's value at row `r`, column `q`, over the arrays it is handed. -/
def kernelEntry (w0 w1 w2 : (⟨S64x300, .f32⟩ : BufTy).Contents (Elt Ideal)) (b : (⟨S1x300, .f32⟩ : BufTy).Contents (Elt Ideal))
    (r : Fin 100000) (q : Fin 300) : EReal :=
  ((∑ k : Fin 64, x (ix2 r k) * w0 (ix2 k q) + ∑ k : Fin 64, t1 (ix2 r k) * w1 (ix2 k q))
    + ∑ k : Fin 64, t2 (ix2 r k) * w2 (ix2 k q)) + b (ix2 (0 : Fin 1) q)

/-- The bias row at column `q` is the concatenated vector at `q`. -/
theorem bcat_apply (q : Fin 300) :
    bcat a4 a7 a11 (ix2 (0 : Fin 1) q) = concatenate S300 0 [⟨S100, a4⟩, ⟨S100, a7⟩, ⟨S100, a11⟩] concatenates_S100_S100_S100_S300_d0 (ix1 q) :=
  shapeCast_apply _ shapeCasts_S300_S1x300 (ix2 (0 : Fin 1) q) (ix1 q) (by
    rw [Shape.rowMajor_val_one, Shape.rowMajor_val_two]
    show q.val = 0 * 300 + q.val
    omega)

theorem entry_lo (r : Fin 100000) (j : Fin 100) :
    kernelEntry x t1 t2 (wcat0 a3 a5 a8) (wcat1 a6 a9) (wcat2 a10) (bcat a4 a7 a11) r ⟨j.val, by omega⟩
      = (∑ k : Fin 64, x (ix2 r k) * a3 (ix2 k j)) + a4 (ix1 j) := by
  have w0 : ∀ k : Fin 64, wcat0 a3 a5 a8 (ix2 k ⟨j.val, by omega⟩) = a3 (ix2 k j) := fun k => Cert.LibCat3.cols_0 _ _ _ _ k j _
  have w1 : ∀ k : Fin 64, wcat1 a6 a9 (ix2 k ⟨j.val, by omega⟩) = 0 := fun k => (Cert.LibCat3.cols_0 _ _ _ _ k j _).trans (zeroW_apply _)
  have w2 : ∀ k : Fin 64, wcat2 a10 (ix2 k ⟨j.val, by omega⟩) = 0 := fun k => (Cert.LibCat3.cols_0 _ _ _ _ k j _).trans (zeroW_apply _)
  have hb : bcat a4 a7 a11 (ix2 (0 : Fin 1) ⟨j.val, by omega⟩) = a4 (ix1 j) := (bcat_apply a4 a7 a11 _).trans (Cert.LibCat3.vec_0 _ _ _ _ j _)
  unfold kernelEntry
  simp only [w0, w1, w2, hb, mul_zero, Finset.sum_const_zero, add_zero]

theorem entry_mid (r : Fin 100000) (j : Fin 100) :
    kernelEntry x t1 t2 (wcat0 a3 a5 a8) (wcat1 a6 a9) (wcat2 a10) (bcat a4 a7 a11) r ⟨100 + j.val, by omega⟩
      = ((∑ k : Fin 64, x (ix2 r k) * a5 (ix2 k j)) + ∑ k : Fin 64, t1 (ix2 r k) * a6 (ix2 k j)) + a7 (ix1 j) := by
  have w0 : ∀ k : Fin 64, wcat0 a3 a5 a8 (ix2 k ⟨100 + j.val, by omega⟩) = a5 (ix2 k j) := fun k => Cert.LibCat3.cols_1 _ _ _ _ k j _
  have w1 : ∀ k : Fin 64, wcat1 a6 a9 (ix2 k ⟨100 + j.val, by omega⟩) = a6 (ix2 k j) := fun k => Cert.LibCat3.cols_1 _ _ _ _ k j _
  have w2 : ∀ k : Fin 64, wcat2 a10 (ix2 k ⟨100 + j.val, by omega⟩) = 0 := fun k => (Cert.LibCat3.cols_1 _ _ _ _ k j _).trans (zeroW_apply _)
  have hb : bcat a4 a7 a11 (ix2 (0 : Fin 1) ⟨100 + j.val, by omega⟩) = a7 (ix1 j) := (bcat_apply a4 a7 a11 _).trans (Cert.LibCat3.vec_1 _ _ _ _ j _)
  unfold kernelEntry
  simp only [w0, w1, w2, hb, mul_zero, Finset.sum_const_zero, add_zero]

theorem entry_hi (r : Fin 100000) (j : Fin 100) :
    kernelEntry x t1 t2 (wcat0 a3 a5 a8) (wcat1 a6 a9) (wcat2 a10) (bcat a4 a7 a11) r ⟨100 + 100 + j.val, by omega⟩
      = (((∑ k : Fin 64, x (ix2 r k) * a8 (ix2 k j)) + ∑ k : Fin 64, t1 (ix2 r k) * a9 (ix2 k j))
          + ∑ k : Fin 64, t2 (ix2 r k) * a10 (ix2 k j)) + a11 (ix1 j) := by
  have w0 : ∀ k : Fin 64, wcat0 a3 a5 a8 (ix2 k ⟨100 + 100 + j.val, by omega⟩) = a8 (ix2 k j) := fun k => Cert.LibCat3.cols_2 _ _ _ _ k j _
  have w1 : ∀ k : Fin 64, wcat1 a6 a9 (ix2 k ⟨100 + 100 + j.val, by omega⟩) = a9 (ix2 k j) := fun k => Cert.LibCat3.cols_2 _ _ _ _ k j _
  have w2 : ∀ k : Fin 64, wcat2 a10 (ix2 k ⟨100 + 100 + j.val, by omega⟩) = a10 (ix2 k j) := fun k => Cert.LibCat3.cols_2 _ _ _ _ k j _
  have hb : bcat a4 a7 a11 (ix2 (0 : Fin 1) ⟨100 + 100 + j.val, by omega⟩) = a11 (ix1 j) := (bcat_apply a4 a7 a11 _).trans (Cert.LibCat3.vec_2 _ _ _ _ j _)
  unfold kernelEntry
  simp only [w0, w1, w2, hb]

end Cert.KernelIdeal.Hand

end
-- ==== Proof.RefRead.lean ====
/-
  The reference's result read at an entry. Its [100000, 300] result is three [100000, 100] blocks side by side: in
  columns 0–99 x·W10 + b1, in columns 100–199 (x·W20 + T1·W21) + b2, in columns 200–299 ((x·W30 + T1·W31) + T2·W32) + b3,
  each product the sum over the 64 features and each bias repeated down the rows. T1 = L·x is computed twice by the
  program, by the same operations of the same arguments: one value.
-/
import proofs.«178984_j27462020891070_1_alg».proof.Proof.Gen.ReferenceIdeal.Read
import proofs.«178984_j27462020891070_1_alg».proof.Proof.LibCat3

set_option maxRecDepth 16384

noncomputable section

namespace Cert.ReferenceIdeal.Hand

open Cert.ReferenceIdeal Cert.ReferenceIdeal.Read Idealize.ShloMosaic Idealize.ShloMosaic.ValueIdx

/-- The second computation of T1 is the first. -/
theorem tx1_again {F : FTy → Type} [FloatOps F] (a0 : (⟨S100000x64, .f32⟩ : BufTy).Contents (Elt F)) (a1 : (⟨S2x1250000, .i32⟩ : BufTy).Contents (Elt F)) (a2 : (⟨S1250000, .f32⟩ : BufTy).Contents (Elt F)) :
    val_main_v79 (F := F) a0 a1 a2 = val_main_v56 (F := F) a0 a1 a2 := by
  simp only [val_main_v0, val_main_v1, val_main_v2, val_main_v3, val_main_cst, val_main_v4, val_main_v5, val_main_v6, val_main_cst_0, val_main_v7, val_main_v8, val_main_cst_1, val_main_v9, val_main_v10, val_main_cst_2, val_main_call0_v0, val_main_call0_v1, val_main_v11, val_main_v12, val_main_cst_3, val_main_call1_v0, val_main_call1_v1, val_main_v13, val_main_c, val_main_v14, val_main_v15, val_main_c_4, val_main_v16, val_main_v17, val_main_v18, val_main_v19, val_main_v20, val_main_v21, val_main_v22, val_main_c_5, val_main_v23, val_main_v24, val_main_c_6, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_c_7, val_main_v44, val_main_v45, val_main_c_8, val_main_v46, val_main_v47, val_main_v48, val_main_v49, val_main_v50, val_main_v51, val_main_v52, val_main_v53, val_main_cst_9, val_main_v54, val_main_v55, val_main_v56, val_main_v57, val_main_v58, val_main_v59, val_main_v60, val_main_v61, val_main_v62, val_main_v63, val_main_v64, val_main_v65, val_main_v66, val_main_c_10, val_main_v67, val_main_v68, val_main_c_11, val_main_v69, val_main_v70, val_main_v71, val_main_v72, val_main_v73, val_main_v74, val_main_v75, val_main_v76, val_main_cst_12, val_main_v77, val_main_v78, val_main_v79]

variable (a0 : (⟨S100000x64, .f32⟩ : BufTy).Contents (Elt Ideal)) (a1 : (⟨S2x1250000, .i32⟩ : BufTy).Contents (Elt Ideal)) (a2 : (⟨S1250000, .f32⟩ : BufTy).Contents (Elt Ideal))
  (a3 : (⟨S64x100, .f32⟩ : BufTy).Contents (Elt Ideal)) (a4 : (⟨S100, .f32⟩ : BufTy).Contents (Elt Ideal)) (a5 a6 : (⟨S64x100, .f32⟩ : BufTy).Contents (Elt Ideal)) (a7 : (⟨S100, .f32⟩ : BufTy).Contents (Elt Ideal))
  (a8 a9 a10 : (⟨S64x100, .f32⟩ : BufTy).Contents (Elt Ideal)) (a11 : (⟨S100, .f32⟩ : BufTy).Contents (Elt Ideal))

/-- Columns 0–99: x·W10 + b1. -/
theorem ref_lo (r : Fin 100000) (j : Fin 100) :
    val_main_v103 (F := Ideal) a0 a1 a2 a3 a4 a5 a6 a7 a8 a9 a10 a11 (ix2 r ⟨j.val, by omega⟩)
      = (∑ k : Fin 64, a0 (ix2 r k) * a3 (ix2 k j)) + a4 (ix1 j) := by
  unfold val_main_v103
  refine (Cert.LibCat3.cols_0 _ _ _ _ r j _).trans ?_
  rw [val_main_v38_apply, val_main_v35_apply, val_main_v37_apply, val_main_v36_apply]
  have el35 : ∀ k : Fin 64, lidx_main_v35 (ix2 r j) k = ix2 r k := fun k => funext fun a => by
    match a with
    | ⟨0, _⟩ => rfl
    | ⟨1, _⟩ => rfl
  have er35 : ∀ k : Fin 64, ridx_main_v35 (ix2 r j) k = ix2 k j := fun k => funext fun a => by
    match a with
    | ⟨0, _⟩ => rfl
    | ⟨1, _⟩ => rfl
  have eb : idx_main_v36 (idx_main_v37 (ix2 r j)) = ix1 j := funext fun a => by
    match a with
    | ⟨0, _⟩ => rfl
  simp only [el35, er35, eb]
  rfl

/-- Columns 100–199: (x·W20 + T1·W21) + b2. -/
theorem ref_mid (r : Fin 100000) (j : Fin 100) :
    val_main_v103 (F := Ideal) a0 a1 a2 a3 a4 a5 a6 a7 a8 a9 a10 a11 (ix2 r ⟨100 + j.val, by omega⟩)
      = ((∑ k : Fin 64, a0 (ix2 r k) * a5 (ix2 k j)) + ∑ k : Fin 64, val_main_v56 (F := Ideal) a0 a1 a2 (ix2 r k) * a6 (ix2 k j)) + a7 (ix1 j) := by
  unfold val_main_v103
  refine (Cert.LibCat3.cols_1 _ _ _ _ r j _).trans ?_
  rw [val_main_v61_apply, val_main_v58_apply, val_main_v43_apply, val_main_v57_apply, val_main_v60_apply, val_main_v59_apply]
  have el43 : ∀ k : Fin 64, lidx_main_v43 (ix2 r j) k = ix2 r k := fun k => funext fun a => by
    match a with
    | ⟨0, _⟩ => rfl
    | ⟨1, _⟩ => rfl
  have er43 : ∀ k : Fin 64, ridx_main_v43 (ix2 r j) k = ix2 k j := fun k => funext fun a => by
    match a with
    | ⟨0, _⟩ => rfl
    | ⟨1, _⟩ => rfl
  have el57 : ∀ k : Fin 64, lidx_main_v57 (ix2 r j) k = ix2 r k := fun k => funext fun a => by
    match a with
    | ⟨0, _⟩ => rfl
    | ⟨1, _⟩ => rfl
  have er57 : ∀ k : Fin 64, ridx_main_v57 (ix2 r j) k = ix2 k j := fun k => funext fun a => by
    match a with
    | ⟨0, _⟩ => rfl
    | ⟨1, _⟩ => rfl
  have eb : idx_main_v59 (idx_main_v60 (ix2 r j)) = ix1 j := funext fun a => by
    match a with
    | ⟨0, _⟩ => rfl
  simp only [el43, er43, el57, er57, eb]
  rfl

/-- Columns 200–299: ((x·W30 + T1·W31) + T2·W32) + b3. -/
theorem ref_hi (r : Fin 100000) (j : Fin 100) :
    val_main_v103 (F := Ideal) a0 a1 a2 a3 a4 a5 a6 a7 a8 a9 a10 a11 (ix2 r ⟨100 + 100 + j.val, by omega⟩)
      = (((∑ k : Fin 64, a0 (ix2 r k) * a8 (ix2 k j)) + ∑ k : Fin 64, val_main_v56 (F := Ideal) a0 a1 a2 (ix2 r k) * a9 (ix2 k j))
          + ∑ k : Fin 64, val_main_v97 (F := Ideal) a0 a1 a2 (ix2 r k) * a10 (ix2 k j)) + a11 (ix1 j) := by
  unfold val_main_v103
  refine (Cert.LibCat3.cols_2 _ _ _ _ r j _).trans ?_
  rw [val_main_v102_apply, val_main_v99_apply, val_main_v81_apply, val_main_v66_apply, val_main_v80_apply, val_main_v98_apply, val_main_v101_apply, val_main_v100_apply, tx1_again]
  have el66 : ∀ k : Fin 64, lidx_main_v66 (ix2 r j) k = ix2 r k := fun k => funext fun a => by
    match a with
    | ⟨0, _⟩ => rfl
    | ⟨1, _⟩ => rfl
  have er66 : ∀ k : Fin 64, ridx_main_v66 (ix2 r j) k = ix2 k j := fun k => funext fun a => by
    match a with
    | ⟨0, _⟩ => rfl
    | ⟨1, _⟩ => rfl
  have el80 : ∀ k : Fin 64, lidx_main_v80 (ix2 r j) k = ix2 r k := fun k => funext fun a => by
    match a with
    | ⟨0, _⟩ => rfl
    | ⟨1, _⟩ => rfl
  have er80 : ∀ k : Fin 64, ridx_main_v80 (ix2 r j) k = ix2 k j := fun k => funext fun a => by
    match a with
    | ⟨0, _⟩ => rfl
    | ⟨1, _⟩ => rfl
  have el98 : ∀ k : Fin 64, lidx_main_v98 (ix2 r j) k = ix2 r k := fun k => funext fun a => by
    match a with
    | ⟨0, _⟩ => rfl
    | ⟨1, _⟩ => rfl
  have er98 : ∀ k : Fin 64, ridx_main_v98 (ix2 r j) k = ix2 k j := fun k => funext fun a => by
    match a with
    | ⟨0, _⟩ => rfl
    | ⟨1, _⟩ => rfl
  have eb : idx_main_v100 (idx_main_v101 (ix2 r j)) = ix1 j := funext fun a => by
    match a with
    | ⟨0, _⟩ => rfl
  simp only [el66, er66, el80, er80, el98, er98, eb]
  rfl

end Cert.ReferenceIdeal.Hand

end
-- ==== Proof.KI.Bridge.lean ====
/-
  The two programs' results agree entry by entry. With T1 and T2 the propagated feature matrices, the kernel's entry
  at row r and column q — the three products with the zero-padded weight matrices plus the concatenated bias — is the
  reference's: in each of the three column ranges both sides are the same sums.
-/
import proofs.«178984_j27462020891070_1_alg».proof.Proof.KI.Entry
import proofs.«178984_j27462020891070_1_alg».proof.Proof.RefRead

noncomputable section

namespace Cert.KernelIdeal.Hand

open Cert.KernelIdeal Cert.KernelIdeal.Gen Idealize.ShloMosaic Idealize.ShloMosaic.ValueIdx

variable (a0 : (⟨S100000x64, .f32⟩ : BufTy).Contents (Elt Ideal)) (a1 : (⟨S2x1250000, .i32⟩ : BufTy).Contents (Elt Ideal)) (a2 : (⟨S1250000, .f32⟩ : BufTy).Contents (Elt Ideal))
  (a3 : (⟨S64x100, .f32⟩ : BufTy).Contents (Elt Ideal)) (a4 : (⟨S100, .f32⟩ : BufTy).Contents (Elt Ideal)) (a5 a6 : (⟨S64x100, .f32⟩ : BufTy).Contents (Elt Ideal)) (a7 : (⟨S100, .f32⟩ : BufTy).Contents (Elt Ideal))
  (a8 a9 a10 : (⟨S64x100, .f32⟩ : BufTy).Contents (Elt Ideal)) (a11 : (⟨S100, .f32⟩ : BufTy).Contents (Elt Ideal))

/-- The reference's result as one function of the twelve arguments. -/
abbrev refOut : (⟨S100000x300, .f32⟩ : BufTy).Contents (Elt Ideal) :=
  Cert.ReferenceIdeal.Read.val_main_v103 (F := Ideal) a0 a1 a2 a3 a4 a5 a6 a7 a8 a9 a10 a11

/-- The first propagated feature matrix, L·x. -/
abbrev tx1 : (⟨S100000x64, .f32⟩ : BufTy).Contents (Elt Ideal) := Cert.ReferenceIdeal.Read.val_main_v56 (F := Ideal) a0 a1 a2
/-- The second, 2·L·(L·x) − x. -/
abbrev tx2 : (⟨S100000x64, .f32⟩ : BufTy).Contents (Elt Ideal) := Cert.ReferenceIdeal.Read.val_main_v97 (F := Ideal) a0 a1 a2

theorem bridge_nat (r : Fin 100000) (n : Nat) (hn : n < 300) :
    kernelEntry a0 (tx1 a0 a1 a2) (tx2 a0 a1 a2) (wcat0 a3 a5 a8) (wcat1 a6 a9) (wcat2 a10) (bcat a4 a7 a11) r ⟨n, hn⟩
      = refOut a0 a1 a2 a3 a4 a5 a6 a7 a8 a9 a10 a11 (ix2 r ⟨n, hn⟩) := by
  by_cases h1 : n < 100
  · exact (entry_lo a0 _ _ a3 a5 a6 a8 a9 a10 a4 a7 a11 r ⟨n, h1⟩).trans (Cert.ReferenceIdeal.Hand.ref_lo a0 a1 a2 a3 a4 a5 a6 a7 a8 a9 a10 a11 r ⟨n, h1⟩).symm
  · by_cases h2 : n < 200
    · obtain ⟨k, rfl⟩ : ∃ k, n = 100 + k := ⟨n - 100, by omega⟩
      exact (entry_mid a0 _ _ a3 a5 a6 a8 a9 a10 a4 a7 a11 r ⟨k, by omega⟩).trans (Cert.ReferenceIdeal.Hand.ref_mid a0 a1 a2 a3 a4 a5 a6 a7 a8 a9 a10 a11 r ⟨k, by omega⟩).symm
    · obtain ⟨k, rfl⟩ : ∃ k, n = 100 + 100 + k := ⟨n - 200, by omega⟩
      exact (entry_hi a0 _ _ a3 a5 a6 a8 a9 a10 a4 a7 a11 r ⟨k, by omega⟩).trans (Cert.ReferenceIdeal.Hand.ref_hi a0 a1 a2 a3 a4 a5 a6 a7 a8 a9 a10 a11 r ⟨k, by omega⟩).symm

theorem bridge (r : Fin 100000) (q : Fin 300) :
    kernelEntry a0 (tx1 a0 a1 a2) (tx2 a0 a1 a2) (wcat0 a3 a5 a8) (wcat1 a6 a9) (wcat2 a10) (bcat a4 a7 a11) r q
      = refOut a0 a1 a2 a3 a4 a5 a6 a7 a8 a9 a10 a11 (ix2 r q) :=
  bridge_nat a0 a1 a2 a3 a4 a5 a6 a7 a8 a9 a10 a11 r q.val q.isLt

end Cert.KernelIdeal.Hand

end
-- ==== Proof.KI.HostVals.lean ====
/-
  What the region finds in the buffers the host operations computed, as terms of the arguments. The three weight
  matrices [64, 300] are concatenations along the columns — [W10 | W20 | W30], [0 | W21 | W31], [0 | 0 | W32], 0 the
  [64, 100] zero matrix — and the bias row [1, 300] is the concatenation [b1 | b2 | b3] reshaped. The two propagated
  feature matrices T1 = L·x and T2 = 2·L·T1 − x are the same chains of gathers, scalings and scatter-adds over the edge
  list that the reference program applies, operation for operation, so they are the reference's own stage terms of the
  same arguments. The host operations come in five stretches; the contents after each stretch are named, and each
  stretch is read over the contents the one before left: the rows of the edge list, the degree vector and its two
  sign tests after the first; the clamped degrees after the second; their reciprocal square roots after the third; the
  masked normalisation after the fourth; everything else after the fifth.
-/
import proofs.«178984_j27462020891070_1_alg».proof.Proof.KI.Host
import proofs.«178984_j27462020891070_1_alg».proof.Proof.KI.Bridge

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-- Two lines of operations one after the other: the second folded over what the first leaves. -/
theorem after_append {Val : EltTy → Type} (l₁ l₂ : List (HloOp τ sig Val)) (W : Valuation τ sig Val) :
    after (l₁ ++ l₂) W = after l₂ (after l₁ W) := by
  induction l₁ generalizing W with
  | nil => rfl
  | cons op l ih => simp only [List.cons_append, after_cons, ih]

/-- An operation of three operands at literal references: its result with each operand's contents at its own reference. -/
theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-- Read one buffer off the fold of a literal line of operations: each operation's result at its own buffer is its
    function of its operands' contents, at any other buffer what was there. -/
local macro "read_results" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

/-! ## A value at a literal buffer's type is the value: the transports along the buffer's type are identities -/

section Casts
theorem toBuf_main_v13 {F : FTy → Type} [FloatOps F] (v : (⟨S100000, .f32⟩ : BufTy).Contents (Elt F)) (h1 h2 h3) :
    ((TRef.of (sig := sig) (T := ⟨S100000, .f32⟩) main_v13 h1 h2 h3).toBuf v : main_v13.ty.Contents (Elt F)) = v := rfl
theorem ofBuf_main_v13 {F : FTy → Type} [FloatOps F] (v : main_v13.ty.Contents (Elt F)) (h1 h2 h3) :
    ((TRef.of (sig := sig) (T := ⟨S100000, .f32⟩) main_v13 h1 h2 h3).ofBuf v : (⟨S100000, .f32⟩ : BufTy).Contents (Elt F)) = v := rfl
theorem toBuf_main_v11 {F : FTy → Type} [FloatOps F] (v : (⟨S100000, .f32⟩ : BufTy).Contents (Elt F)) (h1 h2 h3) :
    ((TRef.of (sig := sig) (T := ⟨S100000, .f32⟩) main_v11 h1 h2 h3).toBuf v : main_v11.ty.Contents (Elt F)) = v := rfl
theorem ofBuf_main_v11 {F : FTy → Type} [FloatOps F] (v : main_v11.ty.Contents (Elt F)) (h1 h2 h3) :
    ((TRef.of (sig := sig) (T := ⟨S100000, .f32⟩) main_v11 h1 h2 h3).ofBuf v : (⟨S100000, .f32⟩ : BufTy).Contents (Elt F)) = v := rfl
theorem toBuf_main_v12 {F : FTy → Type} [FloatOps F] (v : (⟨S100000, .f32⟩ : BufTy).Contents (Elt F)) (h1 h2 h3) :
    ((TRef.of (sig := sig) (T := ⟨S100000, .f32⟩) main_v12 h1 h2 h3).toBuf v : main_v12.ty.Contents (Elt F)) = v := rfl
theorem ofBuf_main_v12 {F : FTy → Type} [FloatOps F] (v : main_v12.ty.Contents (Elt F)) (h1 h2 h3) :
    ((TRef.of (sig := sig) (T := ⟨S100000, .f32⟩) main_v12 h1 h2 h3).ofBuf v : (⟨S100000, .f32⟩ : BufTy).Contents (Elt F)) = v := rfl
theorem toBuf_main_v6 {F : FTy → Type} [FloatOps F] (v : (⟨S100000, .f32⟩ : BufTy).Contents (Elt F)) (h1 h2 h3) :
    ((TRef.of (sig := sig) (T := ⟨S100000, .f32⟩) main_v6 h1 h2 h3).toBuf v : main_v6.ty.Contents (Elt F)) = v := rfl
theorem ofBuf_main_v6 {F : FTy → Type} [FloatOps F] (v : main_v6.ty.Contents (Elt F)) (h1 h2 h3) :
    ((TRef.of (sig := sig) (T := ⟨S100000, .f32⟩) main_v6 h1 h2 h3).ofBuf v : (⟨S100000, .f32⟩ : BufTy).Contents (Elt F)) = v := rfl
theorem toBuf_main_v8 {F : FTy → Type} [FloatOps F] (v : (⟨S100000, .i1⟩ : BufTy).Contents (Elt F)) (h1 h2 h3) :
    ((TRef.of (sig := sig) (T := ⟨S100000, .i1⟩) main_v8 h1 h2 h3).toBuf v : main_v8.ty.Contents (Elt F)) = v := rfl
theorem ofBuf_main_v8 {F : FTy → Type} [FloatOps F] (v : main_v8.ty.Contents (Elt F)) (h1 h2 h3) :
    ((TRef.of (sig := sig) (T := ⟨S100000, .i1⟩) main_v8 h1 h2 h3).ofBuf v : (⟨S100000, .i1⟩ : BufTy).Contents (Elt F)) = v := rfl
theorem toBuf_main_v10 {F : FTy → Type} [FloatOps F] (v : (⟨S100000, .i1⟩ : BufTy).Contents (Elt F)) (h1 h2 h3) :
    ((TRef.of (sig := sig) (T := ⟨S100000, .i1⟩) main_v10 h1 h2 h3).toBuf v : main_v10.ty.Contents (Elt F)) = v := rfl
theorem ofBuf_main_v10 {F : FTy → Type} [FloatOps F] (v : main_v10.ty.Contents (Elt F)) (h1 h2 h3) :
    ((TRef.of (sig := sig) (T := ⟨S100000, .i1⟩) main_v10 h1 h2 h3).ofBuf v : (⟨S100000, .i1⟩ : BufTy).Contents (Elt F)) = v := rfl
theorem toBuf_main_call0_v0 {F : FTy → Type} [FloatOps F] (v : (⟨S_, .f32⟩ : BufTy).Contents (Elt F)) (h1 h2 h3) :
    ((TRef.of (sig := sig) (T := ⟨S_, .f32⟩) main_call0_v0 h1 h2 h3).toBuf v : main_call0_v0.ty.Contents (Elt F)) = v := rfl
theorem ofBuf_main_call0_v0 {F : FTy → Type} [FloatOps F] (v : main_call0_v0.ty.Contents (Elt F)) (h1 h2 h3) :
    ((TRef.of (sig := sig) (T := ⟨S_, .f32⟩) main_call0_v0 h1 h2 h3).ofBuf v : (⟨S_, .f32⟩ : BufTy).Contents (Elt F)) = v := rfl
theorem toBuf_main_call0_v1 {F : FTy → Type} [FloatOps F] (v : (⟨S100000, .f32⟩ : BufTy).Contents (Elt F)) (h1 h2 h3) :
    ((TRef.of (sig := sig) (T := ⟨S100000, .f32⟩) main_call0_v1 h1 h2 h3).toBuf v : main_call0_v1.ty.Contents (Elt F)) = v := rfl
theorem ofBuf_main_call0_v1 {F : FTy → Type} [FloatOps F] (v : main_call0_v1.ty.Contents (Elt F)) (h1 h2 h3) :
    ((TRef.of (sig := sig) (T := ⟨S100000, .f32⟩) main_call0_v1 h1 h2 h3).ofBuf v : (⟨S100000, .f32⟩ : BufTy).Contents (Elt F)) = v := rfl
theorem toBuf_main_call1_v0 {F : FTy → Type} [FloatOps F] (v : (⟨S_, .f32⟩ : BufTy).Contents (Elt F)) (h1 h2 h3) :
    ((TRef.of (sig := sig) (T := ⟨S_, .f32⟩) main_call1_v0 h1 h2 h3).toBuf v : main_call1_v0.ty.Contents (Elt F)) = v := rfl
theorem ofBuf_main_call1_v0 {F : FTy → Type} [FloatOps F] (v : main_call1_v0.ty.Contents (Elt F)) (h1 h2 h3) :
    ((TRef.of (sig := sig) (T := ⟨S_, .f32⟩) main_call1_v0 h1 h2 h3).ofBuf v : (⟨S_, .f32⟩ : BufTy).Contents (Elt F)) = v := rfl
theorem toBuf_main_call1_v1 {F : FTy → Type} [FloatOps F] (v : (⟨S100000, .f32⟩ : BufTy).Contents (Elt F)) (h1 h2 h3) :
    ((TRef.of (sig := sig) (T := ⟨S100000, .f32⟩) main_call1_v1 h1 h2 h3).toBuf v : main_call1_v1.ty.Contents (Elt F)) = v := rfl
theorem ofBuf_main_call1_v1 {F : FTy → Type} [FloatOps F] (v : main_call1_v1.ty.Contents (Elt F)) (h1 h2 h3) :
    ((TRef.of (sig := sig) (T := ⟨S100000, .f32⟩) main_call1_v1 h1 h2 h3).ofBuf v : (⟨S100000, .f32⟩ : BufTy).Contents (Elt F)) = v := rfl
theorem toBuf_main_cst_2 {F : FTy → Type} [FloatOps F] (v : (⟨S_, .f32⟩ : BufTy).Contents (Elt F)) (h1 h2 h3) :
    ((TRef.of (sig := sig) (T := ⟨S_, .f32⟩) main_cst_2 h1 h2 h3).toBuf v : main_cst_2.ty.Contents (Elt F)) = v := rfl
theorem ofBuf_main_cst_2 {F : FTy → Type} [FloatOps F] (v : main_cst_2.ty.Contents (Elt F)) (h1 h2 h3) :
    ((TRef.of (sig := sig) (T := ⟨S_, .f32⟩) main_cst_2 h1 h2 h3).ofBuf v : (⟨S_, .f32⟩ : BufTy).Contents (Elt F)) = v := rfl
theorem toBuf_main_cst_3 {F : FTy → Type} [FloatOps F] (v : (⟨S_, .f32⟩ : BufTy).Contents (Elt F)) (h1 h2 h3) :
    ((TRef.of (sig := sig) (T := ⟨S_, .f32⟩) main_cst_3 h1 h2 h3).toBuf v : main_cst_3.ty.Contents (Elt F)) = v := rfl
theorem ofBuf_main_cst_3 {F : FTy → Type} [FloatOps F] (v : main_cst_3.ty.Contents (Elt F)) (h1 h2 h3) :
    ((TRef.of (sig := sig) (T := ⟨S_, .f32⟩) main_cst_3 h1 h2 h3).ofBuf v : (⟨S_, .f32⟩ : BufTy).Contents (Elt F)) = v := rfl
end Casts

variable (m : (ℓ : Loc nD τ sig) → Buf (Elt Ideal) ℓ) (c : Dev nD)

/-! ## The contents after each stretch -/

def P0 : Valuation τ sig (Elt Ideal) := after hostOps0 (fun b => m (c, b))
def P1 : Valuation τ sig (Elt Ideal) := after hostOps0_1 (P0 m c)
def P2 : Valuation τ sig (Elt Ideal) := after hostOps0_2 (P1 m c)
def P3 : Valuation τ sig (Elt Ideal) := after hostOps0_3 (P2 m c)

/-- The region's arrays are the fifth stretch over what the fourth left. -/
theorem V_eq (b : Ref sig .tc) : V m c b = after hostOps0_4 (P3 m c) (Proc.devRef .tc b) := by
  show after (List.flatten [hostOps0, hostOps0_1, hostOps0_2, hostOps0_3, hostOps0_4]) (fun b => m (c, b)) (Proc.devRef .tc b) = _
  simp only [List.flatten_cons, List.flatten_nil, List.append_nil, after_append]
  rfl

/-! ## After the first stretch -/

theorem P0_row : (P0 m c (Proc.devRef .tc main_v1) : (⟨S1250000, .i32⟩ : BufTy).Contents (Elt Ideal)) = Cert.ReferenceIdeal.Read.val_main_v1 (F := Ideal) (m ((c : Thread nD τ).loc main_arg1)) := by
  unfold P0; read_results
  simp only [Cert.ReferenceIdeal.Read.val_main_v0, Cert.ReferenceIdeal.Read.val_main_v1]
  rfl
theorem P0_col : (P0 m c (Proc.devRef .tc main_v3) : (⟨S1250000, .i32⟩ : BufTy).Contents (Elt Ideal)) = Cert.ReferenceIdeal.Read.val_main_v3 (F := Ideal) (m ((c : Thread nD τ).loc main_arg1)) := by
  unfold P0; read_results
  simp only [Cert.ReferenceIdeal.Read.val_main_v2, Cert.ReferenceIdeal.Read.val_main_v3]
  rfl
theorem P0_deg : (P0 m c (Proc.devRef .tc main_v6) : (⟨S100000, .f32⟩ : BufTy).Contents (Elt Ideal)) = Cert.ReferenceIdeal.Read.val_main_v6 (F := Ideal) (m ((c : Thread nD τ).loc main_arg1)) (m ((c : Thread nD τ).loc main_arg2)) := by
  unfold P0; read_results
  simp only [Cert.ReferenceIdeal.Read.val_main_v0, Cert.ReferenceIdeal.Read.val_main_v1, Cert.ReferenceIdeal.Read.val_main_v2, Cert.ReferenceIdeal.Read.val_main_v3, Cert.ReferenceIdeal.Read.val_main_cst, Cert.ReferenceIdeal.Read.val_main_v4, Cert.ReferenceIdeal.Read.val_main_v5, Cert.ReferenceIdeal.Read.val_main_v6]
  rfl
theorem P0_pos8 : (P0 m c (Proc.devRef .tc main_v8) : (⟨S100000, .i1⟩ : BufTy).Contents (Elt Ideal)) = Cert.ReferenceIdeal.Read.val_main_v8 (F := Ideal) (m ((c : Thread nD τ).loc main_arg1)) (m ((c : Thread nD τ).loc main_arg2)) := by
  unfold P0; read_results
  simp only [Cert.ReferenceIdeal.Read.val_main_v0, Cert.ReferenceIdeal.Read.val_main_v1, Cert.ReferenceIdeal.Read.val_main_v2, Cert.ReferenceIdeal.Read.val_main_v3, Cert.ReferenceIdeal.Read.val_main_cst, Cert.ReferenceIdeal.Read.val_main_v4, Cert.ReferenceIdeal.Read.val_main_v5, Cert.ReferenceIdeal.Read.val_main_v6, Cert.ReferenceIdeal.Read.val_main_cst_0, Cert.ReferenceIdeal.Read.val_main_v7, Cert.ReferenceIdeal.Read.val_main_v8]
  rfl
theorem P0_pos10 : (P0 m c (Proc.devRef .tc main_v10) : (⟨S100000, .i1⟩ : BufTy).Contents (Elt Ideal)) = Cert.ReferenceIdeal.Read.val_main_v10 (F := Ideal) (m ((c : Thread nD τ).loc main_arg1)) (m ((c : Thread nD τ).loc main_arg2)) := by
  unfold P0; read_results
  simp only [Cert.ReferenceIdeal.Read.val_main_v0, Cert.ReferenceIdeal.Read.val_main_v1, Cert.ReferenceIdeal.Read.val_main_v2, Cert.ReferenceIdeal.Read.val_main_v3, Cert.ReferenceIdeal.Read.val_main_cst, Cert.ReferenceIdeal.Read.val_main_v4, Cert.ReferenceIdeal.Read.val_main_v5, Cert.ReferenceIdeal.Read.val_main_v6, Cert.ReferenceIdeal.Read.val_main_cst_0, Cert.ReferenceIdeal.Read.val_main_v7, Cert.ReferenceIdeal.Read.val_main_v8, Cert.ReferenceIdeal.Read.val_main_cst_1, Cert.ReferenceIdeal.Read.val_main_v9, Cert.ReferenceIdeal.Read.val_main_v10]
  rfl
theorem P0_one : (P0 m c (Proc.devRef .tc main_cst_2) : (⟨S_, .f32⟩ : BufTy).Contents (Elt Ideal)) = Cert.ReferenceIdeal.Read.val_main_cst_2 (F := Ideal) := by
  unfold P0; read_results
  try rfl
theorem P0_arg0 : P0 m c (Proc.devRef .tc main_arg0) = (m ((c : Thread nD τ).loc main_arg0)) := by
  unfold P0; read_results
theorem P0_arg1 : P0 m c (Proc.devRef .tc main_arg1) = (m ((c : Thread nD τ).loc main_arg1)) := by
  unfold P0; read_results
theorem P0_arg2 : P0 m c (Proc.devRef .tc main_arg2) = (m ((c : Thread nD τ).loc main_arg2)) := by
  unfold P0; read_results
theorem P0_arg3 : P0 m c (Proc.devRef .tc main_arg3) = (m ((c : Thread nD τ).loc main_arg3)) := by
  unfold P0; read_results
theorem P0_arg4 : P0 m c (Proc.devRef .tc main_arg4) = (m ((c : Thread nD τ).loc main_arg4)) := by
  unfold P0; read_results
theorem P0_arg5 : P0 m c (Proc.devRef .tc main_arg5) = (m ((c : Thread nD τ).loc main_arg5)) := by
  unfold P0; read_results
theorem P0_arg6 : P0 m c (Proc.devRef .tc main_arg6) = (m ((c : Thread nD τ).loc main_arg6)) := by
  unfold P0; read_results
theorem P0_arg7 : P0 m c (Proc.devRef .tc main_arg7) = (m ((c : Thread nD τ).loc main_arg7)) := by
  unfold P0; read_results
theorem P0_arg8 : P0 m c (Proc.devRef .tc main_arg8) = (m ((c : Thread nD τ).loc main_arg8)) := by
  unfold P0; read_results
theorem P0_arg9 : P0 m c (Proc.devRef .tc main_arg9) = (m ((c : Thread nD τ).loc main_arg9)) := by
  unfold P0; read_results
theorem P0_arg10 : P0 m c (Proc.devRef .tc main_arg10) = (m ((c : Thread nD τ).loc main_arg10)) := by
  unfold P0; read_results
theorem P0_arg11 : P0 m c (Proc.devRef .tc main_arg11) = (m ((c : Thread nD τ).loc main_arg11)) := by
  unfold P0; read_results

/-! ## After the second stretch: the degrees, 1 where not positive -/

theorem P1_clamped : (P1 m c (Proc.devRef .tc main_v11) : (⟨S100000, .f32⟩ : BufTy).Contents (Elt Ideal)) = Cert.ReferenceIdeal.Read.val_main_v11 (F := Ideal) (m ((c : Thread nD τ).loc main_arg1)) (m ((c : Thread nD τ).loc main_arg2)) := by
  unfold P1; read_results
  refine (toBuf_main_v11 _ _ _ _).trans ?_
  rw [ofBuf_main_v10, ofBuf_main_v6, ofBuf_main_call0_v1, toBuf_main_call0_v1, ofBuf_main_call0_v0, toBuf_main_call0_v0, ofBuf_main_cst_2]
  rw [P0_pos10, P0_deg, P0_one]
  simp only [Cert.ReferenceIdeal.Read.val_main_v11, Cert.ReferenceIdeal.Read.val_main_call0_v1, Cert.ReferenceIdeal.Read.val_main_call0_v0]
  try rfl

/-! ## After the third: their reciprocal square roots -/

theorem P2_rsqrt : (P2 m c (Proc.devRef .tc main_v12) : (⟨S100000, .f32⟩ : BufTy).Contents (Elt Ideal)) = Cert.ReferenceIdeal.Read.val_main_v12 (F := Ideal) (m ((c : Thread nD τ).loc main_arg1)) (m ((c : Thread nD τ).loc main_arg2)) := by
  unfold P2; read_results
  rw [P1_clamped]
  simp only [Cert.ReferenceIdeal.Read.val_main_v12]
  try rfl
theorem P2_zero : (P2 m c (Proc.devRef .tc main_cst_3) : (⟨S_, .f32⟩ : BufTy).Contents (Elt Ideal)) = Cert.ReferenceIdeal.Read.val_main_cst_3 (F := Ideal) := by
  unfold P2; read_results
  try rfl
theorem P2_pos8 : (P2 m c (Proc.devRef .tc main_v8) : (⟨S100000, .i1⟩ : BufTy).Contents (Elt Ideal)) = Cert.ReferenceIdeal.Read.val_main_v8 (F := Ideal) (m ((c : Thread nD τ).loc main_arg1)) (m ((c : Thread nD τ).loc main_arg2)) := by
  unfold P2 P1; read_results
  exact P0_pos8 m c

/-! ## After the fourth: the normalisation, 0 where the degree is not positive -/

theorem P3_dis : (P3 m c (Proc.devRef .tc main_v13) : (⟨S100000, .f32⟩ : BufTy).Contents (Elt Ideal)) = Cert.ReferenceIdeal.Read.val_main_v13 (F := Ideal) (m ((c : Thread nD τ).loc main_arg1)) (m ((c : Thread nD τ).loc main_arg2)) := by
  unfold P3; read_results
  refine (toBuf_main_v13 _ _ _ _).trans ?_
  rw [ofBuf_main_v8, ofBuf_main_v12, ofBuf_main_call1_v1, toBuf_main_call1_v1, ofBuf_main_call1_v0, toBuf_main_call1_v0, ofBuf_main_cst_3]
  rw [P2_pos8, P2_rsqrt, P2_zero]
  simp only [Cert.ReferenceIdeal.Read.val_main_v13, Cert.ReferenceIdeal.Read.val_main_call1_v1, Cert.ReferenceIdeal.Read.val_main_call1_v0]
  try rfl
theorem P3_row : (P3 m c (Proc.devRef .tc main_v1) : (⟨S1250000, .i32⟩ : BufTy).Contents (Elt Ideal)) = Cert.ReferenceIdeal.Read.val_main_v1 (F := Ideal) (m ((c : Thread nD τ).loc main_arg1)) := by
  unfold P3 P2 P1; read_results
  exact P0_row m c
theorem P3_col : (P3 m c (Proc.devRef .tc main_v3) : (⟨S1250000, .i32⟩ : BufTy).Contents (Elt Ideal)) = Cert.ReferenceIdeal.Read.val_main_v3 (F := Ideal) (m ((c : Thread nD τ).loc main_arg1)) := by
  unfold P3 P2 P1; read_results
  exact P0_col m c
theorem P3_arg0 : P3 m c (Proc.devRef .tc main_arg0) = (m ((c : Thread nD τ).loc main_arg0)) := by
  unfold P3 P2 P1; read_results
  exact P0_arg0 m c
theorem P3_arg1 : P3 m c (Proc.devRef .tc main_arg1) = (m ((c : Thread nD τ).loc main_arg1)) := by
  unfold P3 P2 P1; read_results
  exact P0_arg1 m c
theorem P3_arg2 : P3 m c (Proc.devRef .tc main_arg2) = (m ((c : Thread nD τ).loc main_arg2)) := by
  unfold P3 P2 P1; read_results
  exact P0_arg2 m c
theorem P3_arg3 : P3 m c (Proc.devRef .tc main_arg3) = (m ((c : Thread nD τ).loc main_arg3)) := by
  unfold P3 P2 P1; read_results
  exact P0_arg3 m c
theorem P3_arg4 : P3 m c (Proc.devRef .tc main_arg4) = (m ((c : Thread nD τ).loc main_arg4)) := by
  unfold P3 P2 P1; read_results
  exact P0_arg4 m c
theorem P3_arg5 : P3 m c (Proc.devRef .tc main_arg5) = (m ((c : Thread nD τ).loc main_arg5)) := by
  unfold P3 P2 P1; read_results
  exact P0_arg5 m c
theorem P3_arg6 : P3 m c (Proc.devRef .tc main_arg6) = (m ((c : Thread nD τ).loc main_arg6)) := by
  unfold P3 P2 P1; read_results
  exact P0_arg6 m c
theorem P3_arg7 : P3 m c (Proc.devRef .tc main_arg7) = (m ((c : Thread nD τ).loc main_arg7)) := by
  unfold P3 P2 P1; read_results
  exact P0_arg7 m c
theorem P3_arg8 : P3 m c (Proc.devRef .tc main_arg8) = (m ((c : Thread nD τ).loc main_arg8)) := by
  unfold P3 P2 P1; read_results
  exact P0_arg8 m c
theorem P3_arg9 : P3 m c (Proc.devRef .tc main_arg9) = (m ((c : Thread nD τ).loc main_arg9)) := by
  unfold P3 P2 P1; read_results
  exact P0_arg9 m c
theorem P3_arg10 : P3 m c (Proc.devRef .tc main_arg10) = (m ((c : Thread nD τ).loc main_arg10)) := by
  unfold P3 P2 P1; read_results
  exact P0_arg10 m c
theorem P3_arg11 : P3 m c (Proc.devRef .tc main_arg11) = (m ((c : Thread nD τ).loc main_arg11)) := by
  unfold P3 P2 P1; read_results
  exact P0_arg11 m c

/-! ## After the fifth: what the region finds -/

set_option maxHeartbeats 4000000 in
/-- T1 = L·x. -/
theorem V_t1 : (V m c main_v43 : (⟨S100000x64, .f32⟩ : BufTy).Contents (Elt Ideal)) = tx1 (m ((c : Thread nD τ).loc main_arg0)) (m ((c : Thread nD τ).loc main_arg1)) (m ((c : Thread nD τ).loc main_arg2)) := by
  rw [V_eq]
  simp only [hostOps0_4]
  read_results
  rw [P3_dis, P3_row, P3_col, P3_arg0, P3_arg2]
  simp only [tx1, Cert.ReferenceIdeal.Read.val_main_c, Cert.ReferenceIdeal.Read.val_main_v14, Cert.ReferenceIdeal.Read.val_main_v15, Cert.ReferenceIdeal.Read.val_main_c_4, Cert.ReferenceIdeal.Read.val_main_v16, Cert.ReferenceIdeal.Read.val_main_v17, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_c_5, Cert.ReferenceIdeal.Read.val_main_v23, Cert.ReferenceIdeal.Read.val_main_v24, Cert.ReferenceIdeal.Read.val_main_c_6, Cert.ReferenceIdeal.Read.val_main_v25, Cert.ReferenceIdeal.Read.val_main_v26, Cert.ReferenceIdeal.Read.val_main_v27, Cert.ReferenceIdeal.Read.val_main_v28, Cert.ReferenceIdeal.Read.val_main_v29, Cert.ReferenceIdeal.Read.val_main_v30, Cert.ReferenceIdeal.Read.val_main_v31, Cert.ReferenceIdeal.Read.val_main_v32, Cert.ReferenceIdeal.Read.val_main_v33, Cert.ReferenceIdeal.Read.val_main_v34, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_v40, Cert.ReferenceIdeal.Read.val_main_v41, Cert.ReferenceIdeal.Read.val_main_v42, Cert.ReferenceIdeal.Read.val_main_v43, Cert.ReferenceIdeal.Read.val_main_c_7, Cert.ReferenceIdeal.Read.val_main_v44, Cert.ReferenceIdeal.Read.val_main_v45, Cert.ReferenceIdeal.Read.val_main_c_8, Cert.ReferenceIdeal.Read.val_main_v46, Cert.ReferenceIdeal.Read.val_main_v47, Cert.ReferenceIdeal.Read.val_main_v48, Cert.ReferenceIdeal.Read.val_main_v49, Cert.ReferenceIdeal.Read.val_main_v50, Cert.ReferenceIdeal.Read.val_main_v51, Cert.ReferenceIdeal.Read.val_main_v52, Cert.ReferenceIdeal.Read.val_main_v53, Cert.ReferenceIdeal.Read.val_main_cst_9, Cert.ReferenceIdeal.Read.val_main_v54, Cert.ReferenceIdeal.Read.val_main_v55, Cert.ReferenceIdeal.Read.val_main_v56]
  rfl

set_option maxHeartbeats 8000000 in
/-- T2 = 2·L·T1 − x. -/
theorem V_t2 : (V m c main_v59 : (⟨S100000x64, .f32⟩ : BufTy).Contents (Elt Ideal)) = tx2 (m ((c : Thread nD τ).loc main_arg0)) (m ((c : Thread nD τ).loc main_arg1)) (m ((c : Thread nD τ).loc main_arg2)) := by
  rw [V_eq]
  simp only [hostOps0_4]
  read_results
  rw [P3_dis, P3_row, P3_col, P3_arg0, P3_arg2]
  simp only [tx2, Cert.ReferenceIdeal.Read.val_main_c, Cert.ReferenceIdeal.Read.val_main_v14, Cert.ReferenceIdeal.Read.val_main_v15, Cert.ReferenceIdeal.Read.val_main_c_4, Cert.ReferenceIdeal.Read.val_main_v16, Cert.ReferenceIdeal.Read.val_main_v17, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_c_5, Cert.ReferenceIdeal.Read.val_main_v23, Cert.ReferenceIdeal.Read.val_main_v24, Cert.ReferenceIdeal.Read.val_main_c_6, Cert.ReferenceIdeal.Read.val_main_v25, Cert.ReferenceIdeal.Read.val_main_v26, Cert.ReferenceIdeal.Read.val_main_v27, Cert.ReferenceIdeal.Read.val_main_v28, Cert.ReferenceIdeal.Read.val_main_v29, Cert.ReferenceIdeal.Read.val_main_v30, Cert.ReferenceIdeal.Read.val_main_v31, Cert.ReferenceIdeal.Read.val_main_v32, Cert.ReferenceIdeal.Read.val_main_v33, Cert.ReferenceIdeal.Read.val_main_v34, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_v40, Cert.ReferenceIdeal.Read.val_main_v41, Cert.ReferenceIdeal.Read.val_main_v42, Cert.ReferenceIdeal.Read.val_main_v43, Cert.ReferenceIdeal.Read.val_main_c_7, Cert.ReferenceIdeal.Read.val_main_v44, Cert.ReferenceIdeal.Read.val_main_v45, Cert.ReferenceIdeal.Read.val_main_c_8, Cert.ReferenceIdeal.Read.val_main_v46, Cert.ReferenceIdeal.Read.val_main_v47, Cert.ReferenceIdeal.Read.val_main_v48, Cert.ReferenceIdeal.Read.val_main_v49, Cert.ReferenceIdeal.Read.val_main_v50, Cert.ReferenceIdeal.Read.val_main_v51, Cert.ReferenceIdeal.Read.val_main_v52, Cert.ReferenceIdeal.Read.val_main_v53, Cert.ReferenceIdeal.Read.val_main_cst_9, Cert.ReferenceIdeal.Read.val_main_v54, Cert.ReferenceIdeal.Read.val_main_v55, Cert.ReferenceIdeal.Read.val_main_v56, Cert.ReferenceIdeal.Read.val_main_v57, Cert.ReferenceIdeal.Read.val_main_v58, Cert.ReferenceIdeal.Read.val_main_v59, Cert.ReferenceIdeal.Read.val_main_v60, Cert.ReferenceIdeal.Read.val_main_v61, Cert.ReferenceIdeal.Read.val_main_v62, Cert.ReferenceIdeal.Read.val_main_v63, Cert.ReferenceIdeal.Read.val_main_v64, Cert.ReferenceIdeal.Read.val_main_v65, Cert.ReferenceIdeal.Read.val_main_v66, Cert.ReferenceIdeal.Read.val_main_c_10, Cert.ReferenceIdeal.Read.val_main_v67, Cert.ReferenceIdeal.Read.val_main_v68, Cert.ReferenceIdeal.Read.val_main_c_11, Cert.ReferenceIdeal.Read.val_main_v69, Cert.ReferenceIdeal.Read.val_main_v70, Cert.ReferenceIdeal.Read.val_main_v71, Cert.ReferenceIdeal.Read.val_main_v72, Cert.ReferenceIdeal.Read.val_main_v73, Cert.ReferenceIdeal.Read.val_main_v74, Cert.ReferenceIdeal.Read.val_main_v75, Cert.ReferenceIdeal.Read.val_main_v76, Cert.ReferenceIdeal.Read.val_main_cst_12, Cert.ReferenceIdeal.Read.val_main_v77, Cert.ReferenceIdeal.Read.val_main_v78, Cert.ReferenceIdeal.Read.val_main_v79, Cert.ReferenceIdeal.Read.val_main_v80, Cert.ReferenceIdeal.Read.val_main_v81, Cert.ReferenceIdeal.Read.val_main_c_13, Cert.ReferenceIdeal.Read.val_main_v82, Cert.ReferenceIdeal.Read.val_main_v83, Cert.ReferenceIdeal.Read.val_main_c_14, Cert.ReferenceIdeal.Read.val_main_v84, Cert.ReferenceIdeal.Read.val_main_v85, Cert.ReferenceIdeal.Read.val_main_v86, Cert.ReferenceIdeal.Read.val_main_v87, Cert.ReferenceIdeal.Read.val_main_v88, Cert.ReferenceIdeal.Read.val_main_v89, Cert.ReferenceIdeal.Read.val_main_v90, Cert.ReferenceIdeal.Read.val_main_v91, Cert.ReferenceIdeal.Read.val_main_cst_15, Cert.ReferenceIdeal.Read.val_main_v92, Cert.ReferenceIdeal.Read.val_main_v93, Cert.ReferenceIdeal.Read.val_main_v94, Cert.ReferenceIdeal.Read.val_main_cst_16, Cert.ReferenceIdeal.Read.val_main_v95, Cert.ReferenceIdeal.Read.val_main_v96, Cert.ReferenceIdeal.Read.val_main_v97]
  rfl

theorem V_w0 : (V m c main_v61 : (⟨S64x300, .f32⟩ : BufTy).Contents (Elt Ideal)) = wcat0 (m ((c : Thread nD τ).loc main_arg3)) (m ((c : Thread nD τ).loc main_arg5)) (m ((c : Thread nD τ).loc main_arg8)) := by
  rw [V_eq]
  simp only [hostOps0_4]
  read_results
  show concatenate S64x300 1 [⟨S64x100, P3 m c (Proc.devRef .tc main_arg3)⟩, ⟨S64x100, P3 m c (Proc.devRef .tc main_arg5)⟩, ⟨S64x100, P3 m c (Proc.devRef .tc main_arg8)⟩] concatenates_S64x100_S64x100_S64x100_S64x300_d1 = _
  rw [P3_arg3, P3_arg5, P3_arg8]
theorem V_w1 : (V m c main_v62 : (⟨S64x300, .f32⟩ : BufTy).Contents (Elt Ideal)) = wcat1 (m ((c : Thread nD τ).loc main_arg6)) (m ((c : Thread nD τ).loc main_arg9)) := by
  rw [V_eq]
  simp only [hostOps0_4]
  read_results
  show concatenate S64x300 1 [⟨S64x100, zeroW (F := Ideal)⟩, ⟨S64x100, P3 m c (Proc.devRef .tc main_arg6)⟩, ⟨S64x100, P3 m c (Proc.devRef .tc main_arg9)⟩] concatenates_S64x100_S64x100_S64x100_S64x300_d1 = _
  rw [P3_arg6, P3_arg9]
theorem V_w2 : (V m c main_v63 : (⟨S64x300, .f32⟩ : BufTy).Contents (Elt Ideal)) = wcat2 (m ((c : Thread nD τ).loc main_arg10)) := by
  rw [V_eq]
  simp only [hostOps0_4]
  read_results
  show concatenate S64x300 1 [⟨S64x100, zeroW (F := Ideal)⟩, ⟨S64x100, zeroW (F := Ideal)⟩, ⟨S64x100, P3 m c (Proc.devRef .tc main_arg10)⟩] concatenates_S64x100_S64x100_S64x100_S64x300_d1 = _
  rw [P3_arg10]
theorem V_b : (V m c main_v65 : (⟨S1x300, .f32⟩ : BufTy).Contents (Elt Ideal)) = bcat (m ((c : Thread nD τ).loc main_arg4)) (m ((c : Thread nD τ).loc main_arg7)) (m ((c : Thread nD τ).loc main_arg11)) := by
  rw [V_eq]
  simp only [hostOps0_4]
  read_results
  show shapeCast S1x300 (concatenate S300 0 [⟨S100, P3 m c (Proc.devRef .tc main_arg4)⟩, ⟨S100, P3 m c (Proc.devRef .tc main_arg7)⟩, ⟨S100, P3 m c (Proc.devRef .tc main_arg11)⟩] concatenates_S100_S100_S100_S300_d0) shapeCasts_S300_S1x300 = _
  rw [P3_arg4, P3_arg7, P3_arg11]

end Cert.KernelIdeal.Hand

end
-- ==== Proof.KI.Blocks.lean ====
/-
  The windows' blocks. Grid point t of the 25 stages rows 4000·t … 4000·t + 3999 of x, T1 and T2 and of the result;
  the three weight matrices and the bias row are each one block, the whole array, at every point. So an entry of a
  row window's block is the array's entry 4000·t rows further down, and an entry of the other blocks is the array's.
-/
import proofs.«178984_j27462020891070_1_alg».proof.Proof.KI.Host
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The windows' block indices at a point, decided over the grid: the three row windows and the output move down one
    block per point; the weights and the bias stay. -/
structure IdxFacts (t : Fin cfg0.N) : Prop where
  i00 : win0_0.index t (0 : Fin 2) = t.val
  i01 : win0_0.index t (1 : Fin 2) = 0
  i10 : win0_1.index t (0 : Fin 2) = t.val
  i11 : win0_1.index t (1 : Fin 2) = 0
  i20 : win0_2.index t (0 : Fin 2) = t.val
  i21 : win0_2.index t (1 : Fin 2) = 0
  i70 : win0_7.index t (0 : Fin 2) = t.val
  i71 : win0_7.index t (1 : Fin 2) = 0
  i30 : win0_3.index t (0 : Fin 2) = 0
  i31 : win0_3.index t (1 : Fin 2) = 0
  i40 : win0_4.index t (0 : Fin 2) = 0
  i41 : win0_4.index t (1 : Fin 2) = 0
  i50 : win0_5.index t (0 : Fin 2) = 0
  i51 : win0_5.index t (1 : Fin 2) = 0
  i60 : win0_6.index t (0 : Fin 2) = 0
  i61 : win0_6.index t (1 : Fin 2) = 0

theorem idx_facts : ∀ t : Fin cfg0.N, IdxFacts t :=
  fun t => have h := (by decide +kernel : ∀ t : Fin grid0.N,
      win0_0.index t (0 : Fin 2) = t.val ∧ win0_0.index t (1 : Fin 2) = 0 ∧ win0_1.index t (0 : Fin 2) = t.val ∧ win0_1.index t (1 : Fin 2) = 0 ∧ win0_2.index t (0 : Fin 2) = t.val ∧ win0_2.index t (1 : Fin 2) = 0 ∧ win0_7.index t (0 : Fin 2) = t.val ∧ win0_7.index t (1 : Fin 2) = 0
      ∧ win0_3.index t (0 : Fin 2) = 0 ∧ win0_3.index t (1 : Fin 2) = 0 ∧ win0_4.index t (0 : Fin 2) = 0 ∧ win0_4.index t (1 : Fin 2) = 0 ∧ win0_5.index t (0 : Fin 2) = 0 ∧ win0_5.index t (1 : Fin 2) = 0 ∧ win0_6.index t (0 : Fin 2) = 0 ∧ win0_6.index t (1 : Fin 2) = 0) t
    ⟨h.1, h.2.1, h.2.2.1, h.2.2.2.1, h.2.2.2.2.1, h.2.2.2.2.2.1, h.2.2.2.2.2.2.1, h.2.2.2.2.2.2.2.1,
     h.2.2.2.2.2.2.2.2.1, h.2.2.2.2.2.2.2.2.2.1, h.2.2.2.2.2.2.2.2.2.2.1, h.2.2.2.2.2.2.2.2.2.2.2.1,
     h.2.2.2.2.2.2.2.2.2.2.2.2.1, h.2.2.2.2.2.2.2.2.2.2.2.2.2.1, h.2.2.2.2.2.2.2.2.2.2.2.2.2.2.1, h.2.2.2.2.2.2.2.2.2.2.2.2.2.2.2⟩

theorem point_lt (t : Fin cfg0.N) : t.val < 25 := by
  have h : t.val < grid0.N := t.isLt
  rw [N_0] at h
  exact h

/-- The row of the arrays that row `p` of point `t`'s blocks is. -/
def rowOf (t : Fin cfg0.N) (p : Fin 4000) : Fin 100000 := ⟨4000 * t.val + p.val, by have := point_lt t; have := p.isLt; omega⟩

/-! ## Where a block's entry sits -/

/-- Where entry `x` of window 0's block at point `t` sits in its array. -/
theorem emb0 (t : Fin cfg0.N) (x : S4000x64.Idx) (u : Fin 100000) (v : Fin 64)
    (h0 : u.val = 4000 * t.val + (x 0).val) (h1 : v.val = (x 1).val) :
    ((cfg0.win 0).blk t).view.emb x = (ix2 u v : S100000x64.Idx) := by
  have e := idx_facts t
  refine funext fun a => Fin.ext ?_
  match a with
  | ⟨0, _⟩ => show win0_0.index t (0 : Fin 2) * 4000 + 1 * (x 0).val = u.val; rw [e.i00, h0]; omega
  | ⟨1, _⟩ => show win0_0.index t (1 : Fin 2) * 64 + 1 * (x 1).val = v.val; rw [e.i01, h1]; omega

/-- Where entry `x` of window 1's block at point `t` sits in its array. -/
theorem emb1 (t : Fin cfg0.N) (x : S4000x64.Idx) (u : Fin 100000) (v : Fin 64)
    (h0 : u.val = 4000 * t.val + (x 0).val) (h1 : v.val = (x 1).val) :
    ((cfg0.win 1).blk t).view.emb x = (ix2 u v : S100000x64.Idx) := by
  have e := idx_facts t
  refine funext fun a => Fin.ext ?_
  match a with
  | ⟨0, _⟩ => show win0_1.index t (0 : Fin 2) * 4000 + 1 * (x 0).val = u.val; rw [e.i10, h0]; omega
  | ⟨1, _⟩ => show win0_1.index t (1 : Fin 2) * 64 + 1 * (x 1).val = v.val; rw [e.i11, h1]; omega

/-- Where entry `x` of window 2's block at point `t` sits in its array. -/
theorem emb2 (t : Fin cfg0.N) (x : S4000x64.Idx) (u : Fin 100000) (v : Fin 64)
    (h0 : u.val = 4000 * t.val + (x 0).val) (h1 : v.val = (x 1).val) :
    ((cfg0.win 2).blk t).view.emb x = (ix2 u v : S100000x64.Idx) := by
  have e := idx_facts t
  refine funext fun a => Fin.ext ?_
  match a with
  | ⟨0, _⟩ => show win0_2.index t (0 : Fin 2) * 4000 + 1 * (x 0).val = u.val; rw [e.i20, h0]; omega
  | ⟨1, _⟩ => show win0_2.index t (1 : Fin 2) * 64 + 1 * (x 1).val = v.val; rw [e.i21, h1]; omega

/-- Where entry `x` of window 3's block at point `t` sits in its array. -/
theorem emb3 (t : Fin cfg0.N) (x : S64x300.Idx) (u : Fin 64) (v : Fin 300)
    (h0 : u.val = (x 0).val) (h1 : v.val = (x 1).val) :
    ((cfg0.win 3).blk t).view.emb x = (ix2 u v : S64x300.Idx) := by
  have e := idx_facts t
  refine funext fun a => Fin.ext ?_
  match a with
  | ⟨0, _⟩ => show win0_3.index t (0 : Fin 2) * 64 + 1 * (x 0).val = u.val; rw [e.i30, h0]; omega
  | ⟨1, _⟩ => show win0_3.index t (1 : Fin 2) * 300 + 1 * (x 1).val = v.val; rw [e.i31, h1]; omega

/-- Where entry `x` of window 4's block at point `t` sits in its array. -/
theorem emb4 (t : Fin cfg0.N) (x : S64x300.Idx) (u : Fin 64) (v : Fin 300)
    (h0 : u.val = (x 0).val) (h1 : v.val = (x 1).val) :
    ((cfg0.win 4).blk t).view.emb x = (ix2 u v : S64x300.Idx) := by
  have e := idx_facts t
  refine funext fun a => Fin.ext ?_
  match a with
  | ⟨0, _⟩ => show win0_4.index t (0 : Fin 2) * 64 + 1 * (x 0).val = u.val; rw [e.i40, h0]; omega
  | ⟨1, _⟩ => show win0_4.index t (1 : Fin 2) * 300 + 1 * (x 1).val = v.val; rw [e.i41, h1]; omega

/-- Where entry `x` of window 5's block at point `t` sits in its array. -/
theorem emb5 (t : Fin cfg0.N) (x : S64x300.Idx) (u : Fin 64) (v : Fin 300)
    (h0 : u.val = (x 0).val) (h1 : v.val = (x 1).val) :
    ((cfg0.win 5).blk t).view.emb x = (ix2 u v : S64x300.Idx) := by
  have e := idx_facts t
  refine funext fun a => Fin.ext ?_
  match a with
  | ⟨0, _⟩ => show win0_5.index t (0 : Fin 2) * 64 + 1 * (x 0).val = u.val; rw [e.i50, h0]; omega
  | ⟨1, _⟩ => show win0_5.index t (1 : Fin 2) * 300 + 1 * (x 1).val = v.val; rw [e.i51, h1]; omega

/-- Where entry `x` of window 6's block at point `t` sits in its array. -/
theorem emb6 (t : Fin cfg0.N) (x : S1x300.Idx) (u : Fin 1) (v : Fin 300)
    (h0 : u.val = (x 0).val) (h1 : v.val = (x 1).val) :
    ((cfg0.win 6).blk t).view.emb x = (ix2 u v : S1x300.Idx) := by
  have e := idx_facts t
  refine funext fun a => Fin.ext ?_
  match a with
  | ⟨0, _⟩ => show win0_6.index t (0 : Fin 2) * 1 + 1 * (x 0).val = u.val; rw [e.i60, h0]; omega
  | ⟨1, _⟩ => show win0_6.index t (1 : Fin 2) * 300 + 1 * (x 1).val = v.val; rw [e.i61, h1]; omega

/-! ## The blocks read at an entry -/

/-- Window 0's block at point `t`, entry `x`: row 4000·t + x₀, column x₁ of its array. -/
theorem iblk0_apply (c : Dev nD) (t : Fin cfg0.N) (x : S4000x64.Idx) (u : Fin 100000) (v : Fin 64)
    (h0 : u.val = 4000 * t.val + (x 0).val) (h1 : v.val = (x 1).val) :
    (iblk m c 0 t : Vec Ideal S4000x64 .f32) x = V m c (Pipeline.arrRef spec0 0) (ix2 u v : S100000x64.Idx) := by
  unfold iblk
  rw [View.read_apply, emb0 t x u v h0 h1]
  exact cast_eq _ _

/-- Window 1's block at point `t`, entry `x`: row 4000·t + x₀, column x₁ of its array. -/
theorem iblk1_apply (c : Dev nD) (t : Fin cfg0.N) (x : S4000x64.Idx) (u : Fin 100000) (v : Fin 64)
    (h0 : u.val = 4000 * t.val + (x 0).val) (h1 : v.val = (x 1).val) :
    (iblk m c 1 t : Vec Ideal S4000x64 .f32) x = V m c (Pipeline.arrRef spec0 1) (ix2 u v : S100000x64.Idx) := by
  unfold iblk
  rw [View.read_apply, emb1 t x u v h0 h1]
  exact cast_eq _ _

/-- Window 2's block at point `t`, entry `x`: row 4000·t + x₀, column x₁ of its array. -/
theorem iblk2_apply (c : Dev nD) (t : Fin cfg0.N) (x : S4000x64.Idx) (u : Fin 100000) (v : Fin 64)
    (h0 : u.val = 4000 * t.val + (x 0).val) (h1 : v.val = (x 1).val) :
    (iblk m c 2 t : Vec Ideal S4000x64 .f32) x = V m c (Pipeline.arrRef spec0 2) (ix2 u v : S100000x64.Idx) := by
  unfold iblk
  rw [View.read_apply, emb2 t x u v h0 h1]
  exact cast_eq _ _

/-- Window 3's block at point `t`, entry `x`: the same entry of its array (the block is the whole array). -/
theorem iblk3_apply (c : Dev nD) (t : Fin cfg0.N) (x : S64x300.Idx) (u : Fin 64) (v : Fin 300)
    (h0 : u.val = (x 0).val) (h1 : v.val = (x 1).val) :
    (iblk m c 3 t : Vec Ideal S64x300 .f32) x = V m c (Pipeline.arrRef spec0 3) (ix2 u v : S64x300.Idx) := by
  unfold iblk
  rw [View.read_apply, emb3 t x u v h0 h1]
  exact cast_eq _ _

/-- Window 4's block at point `t`, entry `x`: the same entry of its array (the block is the whole array). -/
theorem iblk4_apply (c : Dev nD) (t : Fin cfg0.N) (x : S64x300.Idx) (u : Fin 64) (v : Fin 300)
    (h0 : u.val = (x 0).val) (h1 : v.val = (x 1).val) :
    (iblk m c 4 t : Vec Ideal S64x300 .f32) x = V m c (Pipeline.arrRef spec0 4) (ix2 u v : S64x300.Idx) := by
  unfold iblk
  rw [View.read_apply, emb4 t x u v h0 h1]
  exact cast_eq _ _

/-- Window 5's block at point `t`, entry `x`: the same entry of its array (the block is the whole array). -/
theorem iblk5_apply (c : Dev nD) (t : Fin cfg0.N) (x : S64x300.Idx) (u : Fin 64) (v : Fin 300)
    (h0 : u.val = (x 0).val) (h1 : v.val = (x 1).val) :
    (iblk m c 5 t : Vec Ideal S64x300 .f32) x = V m c (Pipeline.arrRef spec0 5) (ix2 u v : S64x300.Idx) := by
  unfold iblk
  rw [View.read_apply, emb5 t x u v h0 h1]
  exact cast_eq _ _

/-- Window 6's block at point `t`, entry `x`: the same entry of its array (the block is the whole array). -/
theorem iblk6_apply (c : Dev nD) (t : Fin cfg0.N) (x : S1x300.Idx) (u : Fin 1) (v : Fin 300)
    (h0 : u.val = (x 0).val) (h1 : v.val = (x 1).val) :
    (iblk m c 6 t : Vec Ideal S1x300 .f32) x = V m c (Pipeline.arrRef spec0 6) (ix2 u v : S1x300.Idx) := by
  unfold iblk
  rw [View.read_apply, emb6 t x u v h0 h1]
  exact cast_eq _ _

end Cert.KernelIdeal.Hand

end
-- ==== Proof.KI.Flushed.lean ====
/-
  What a grid point writes back. At row p, column q of its block, point t stores the body's value of the seven staged
  blocks there, which — the blocks read as their arrays, the arrays as the host operations left them — is the
  reference's result at row 4000·t + p, column q.
-/
import proofs.«178984_j27462020891070_1_alg».proof.Proof.KI.Frame
import proofs.«178984_j27462020891070_1_alg».proof.Proof.KI.Payload
import proofs.«178984_j27462020891070_1_alg».proof.Proof.KI.HostVals
import proofs.«178984_j27462020891070_1_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-! ## What a point writes back -/

/-- The reference's result of the launch arguments, as the contents of the result array. -/
abbrev result (c : Dev nD) : Buf (Elt Ideal) ((c : Thread nD τ).loc main_v66) :=
  refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- Point `t` writes back block `t` of the reference's result. -/
theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after0_7]
  unfold outBlock
  rw [View.canon_unit_zero hz]
  simp only [View.ld_unit_zero (S := S4000x64) hz, View.ld_unit_zero (S := S64x300) hz, View.ld_unit_zero (S := S1x300) hz]
  refine funext fun (y : S4000x300.Idx) => ?_
  obtain ⟨p, q, rfl⟩ : ∃ (p : Fin 4000) (q : Fin 300), y = ix2 p q := ⟨y 0, y 1, eq_ix2 y⟩
  show k0_pay1 (F := Ideal) (iblk m c 0 t) (iblk m c 1 t) (iblk m c 2 t) (iblk m c 3 t) (iblk m c 4 t) (iblk m c 5 t) (iblk m c 6 t) (ix2 p q)
      = (result m c : S100000x300.Idx → Elt Ideal .f32) (((cfg0.win 7).blk t).view.emb (ix2 p q))
  refine (pay_apply (iblk m c 0 t) (iblk m c 1 t) (iblk m c 2 t) (iblk m c 3 t) (iblk m c 4 t) (iblk m c 5 t) (iblk m c 6 t) (ix2 p q)).trans ?_
  have e := idx_facts t
  have hemb : ((cfg0.win 7).blk t).view.emb (ix2 p q) = (ix2 (rowOf t p) q : S100000x300.Idx) := funext fun a => Fin.ext (by
    match a with
    | ⟨0, _⟩ => show win0_7.index t (0 : Fin 2) * 4000 + 1 * p.val = 4000 * t.val + p.val; rw [e.i70]; omega
    | ⟨1, _⟩ => show win0_7.index t (1 : Fin 2) * 300 + 1 * q.val = q.val; rw [e.i71]; omega)
  rw [hemb]
  refine Eq.trans ?_ (bridge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (rowOf t p) q)
  have b0 : ∀ k : Fin 64, (iblk m c 0 t : Vec Ideal S4000x64 .f32) (lrow (ix2 p q) k) = (m ((c : Thread nD τ).loc main_arg0)) (ix2 (rowOf t p) k) :=
    fun k => (iblk0_apply m c t _ (rowOf t p) k rfl rfl).trans (congrFun (V_main_arg0 m c) _)
  have b1 : ∀ k : Fin 64, (iblk m c 1 t : Vec Ideal S4000x64 .f32) (lrow (ix2 p q) k) = tx1 (m ((c : Thread nD τ).loc main_arg0)) (m ((c : Thread nD τ).loc main_arg1)) (m ((c : Thread nD τ).loc main_arg2)) (ix2 (rowOf t p) k) :=
    fun k => (iblk1_apply m c t _ (rowOf t p) k rfl rfl).trans (congrFun (V_t1 m c) _)
  have b2 : ∀ k : Fin 64, (iblk m c 2 t : Vec Ideal S4000x64 .f32) (lrow (ix2 p q) k) = tx2 (m ((c : Thread nD τ).loc main_arg0)) (m ((c : Thread nD τ).loc main_arg1)) (m ((c : Thread nD τ).loc main_arg2)) (ix2 (rowOf t p) k) :=
    fun k => (iblk2_apply m c t _ (rowOf t p) k rfl rfl).trans (congrFun (V_t2 m c) _)
  have w0 : ∀ k : Fin 64, (iblk m c 3 t : Vec Ideal S64x300 .f32) (rcol (ix2 p q) k) = wcat0 (m ((c : Thread nD τ).loc main_arg3)) (m ((c : Thread nD τ).loc main_arg5)) (m ((c : Thread nD τ).loc main_arg8)) (ix2 k q) :=
    fun k => (iblk3_apply m c t _ k q rfl rfl).trans (congrFun (V_w0 m c) _)
  have w1 : ∀ k : Fin 64, (iblk m c 4 t : Vec Ideal S64x300 .f32) (rcol (ix2 p q) k) = wcat1 (m ((c : Thread nD τ).loc main_arg6)) (m ((c : Thread nD τ).loc main_arg9)) (ix2 k q) :=
    fun k => (iblk4_apply m c t _ k q rfl rfl).trans (congrFun (V_w1 m c) _)
  have w2 : ∀ k : Fin 64, (iblk m c 5 t : Vec Ideal S64x300 .f32) (rcol (ix2 p q) k) = wcat2 (m ((c : Thread nD τ).loc main_arg10)) (ix2 k q) :=
    fun k => (iblk5_apply m c t _ k q rfl rfl).trans (congrFun (V_w2 m c) _)
  have bb : (iblk m c 6 t : Vec Ideal S1x300 .f32) (brow (ix2 p q)) = bcat (m ((c : Thread nD τ).loc main_arg4)) (m ((c : Thread nD τ).loc main_arg7)) (m ((c : Thread nD τ).loc main_arg11)) (ix2 (0 : Fin 1) q) :=
    (iblk6_apply m c t _ (0 : Fin 1) q rfl rfl).trans (congrFun (V_b m c) _)
  unfold kernelEntry
  simp only [b0, b1, b2, w0, w1, w2, bb]

end Cert.KernelIdeal.Hand

end
-- ==== Proof.KI.Value.lean ====
/-
  The kernel's result array. Grid point t of the 25 stages rows 4000·t … 4000·t + 3999 of x, T1 and T2, the whole of
  the three weight matrices and of the bias row, and writes back rows 4000·t … 4000·t + 3999 of the [100000, 300] result.
  What it writes back at row 4000·t + p, column q is the body's value at (p, q) of those blocks, which is the
  reference's result at that row and column; the 25 blocks tile the result, so after the run the result array is the
  reference's result as a function of the twelve arguments.
-/
import proofs.«178984_j27462020891070_1_alg».proof.Proof.KI.Flushed

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-! ## The blocks tile the result -/

theorem mem_blk7 (t : Fin cfg0.N) (i : S100000x300.Idx) :
    i ∈ ((cfg0.win 7).blk t).view.set ↔ ∀ a : Fin 2, win0_7.index t a * S4000x300.size a ≤ (i a).val ∧ (i a).val < win0_7.index t a * S4000x300.size a + S4000x300.size a := by
  show i ∈ ((View.whole main_v66).slice (win0_7.rect t)).set ↔ _
  rw [View.set_slice_whole, Rect.mem_set_unit]
  exact Iff.rfl

/-- Row r is in the block of point r / 4000. -/
theorem covered (i : S100000x300.Idx) : ∃ t : Fin cfg0.N, (cfg0.win 7).flush t = true ∧ i ∈ ((cfg0.win 7).blk t).view.set := by
  have hi0 : (i 0).val < 100000 := (i 0).isLt
  have hi1 : (i 1).val < 300 := (i 1).isLt
  have hN : grid0.N = 25 := N_0
  let t : Fin cfg0.N := ⟨(i 0).val / 4000, by show (i 0).val / 4000 < grid0.N; rw [hN]; omega⟩
  have e := idx_facts t
  refine ⟨t, flush0_7 t, ?_⟩
  rw [mem_blk7]
  intro a
  match a with
  | ⟨0, _⟩ => show win0_7.index t (0 : Fin 2) * 4000 ≤ (i 0).val ∧ (i 0).val < win0_7.index t (0 : Fin 2) * 4000 + 4000
              rw [e.i70]; show (i 0).val / 4000 * 4000 ≤ (i 0).val ∧ (i 0).val < (i 0).val / 4000 * 4000 + 4000; omega
  | ⟨1, _⟩ => show win0_7.index t (1 : Fin 2) * 300 ≤ (i 1).val ∧ (i 1).val < win0_7.index t (1 : Fin 2) * 300 + 300
              rw [e.i71]; omega

/-- After the run the result array holds the reference's result of the arguments. -/
theorem final (c : Dev nD) : (dats m 0 c).arrAt 7 cfg0.N = result m c :=
  (dats m 0 c).arrAt_eq_of_cover 7 (result m c) (fun t _ => flushed_eq m c t) covered

/-! ## The run, read -/

theorem run : θ_run defs (onTc (τ := τ) (main (F := Ideal))) ⟨m, fun _ => 0, ρ⟩ (fun r => ∀ c : Dev nD,
      r.2.mem ((c.tc : Thread nD τ).loc main_v66) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 7).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

end Cert.KernelIdeal.Hand

end
-- ==== Proof.lean ====
/-
  Three Chebyshev graph convolutions of orders 1, 2, 3 over one edge list, their [100000, 100] results side by side.
  With L the normalised graph operator (a gather along one row of the edge list, a scaling by the edge's normalised
  weight, a scatter-add along the other row), T0 = x, T1 = L·x and T2 = 2·L·T1 − x, the reference computes
  [x·W10 + b1 | (x·W20 + T1·W21) + b2 | ((x·W30 + T1·W31) + T2·W32) + b3]. The kernel's program computes T1 and T2 by
  the same host operations, builds the three [64, 300] matrices [W10 | W20 | W30], [0 | W21 | W31], [0 | 0 | W32] and
  the row [b1 | b2 | b3], and one pallas_call over 25 blocks of 4000 rows stores ((T0·W0 + T1·W1) + T2·W2) + bias.
  On the extended reals the padded products vanish (a product with 0 is 0, a sum of zeros is 0, adding 0 changes
  nothing) and rounding the matmul operands to bf16 is the identity, so the two results agree entry by entry; no
  finiteness of the inputs is used. Each program runs to the end and leaves its arguments as launched: the kernel's
  by the launch of its one pipelined region after five stretches of host operations, at the bit-exact and at the
  ideal instance alike; the reference's by the run of its host operations. The idealization rewrote nothing.
-/
import proofs.«178984_j27462020891070_1_alg».proof.Defs
import proofs.«178984_j27462020891070_1_alg».proof.Proof.K.Frame
import proofs.«178984_j27462020891070_1_alg».proof.Proof.KI.Value
import proofs.«178984_j27462020891070_1_alg».proof.Proof.Gen.Kernel
import proofs.«178984_j27462020891070_1_alg».proof.Proof.Gen.KernelIdeal
import proofs.«178984_j27462020891070_1_alg».proof.Proof.Gen.ReferenceIdeal
import proofs.«178984_j27462020891070_1_alg».proof.Proof.Gen.Pre_finite_inputs
import proofs.«178984_j27462020891070_1_alg».proof.Proof.Gen.ReferenceIdeal.Run
import proofs.«178984_j27462020891070_1_alg».proof.Proof.Gen.ReferenceIdeal.Read
import Idealize.ShloMosaic.Adequacy
import Idealize.ShloMosaic.Init

noncomputable section

namespace Cert.Proof

open Idealize.ShloMosaic Idealize.SL.Sem

/-- The kernel's program as printed runs and keeps its arguments. -/
theorem frame_k : Cert.frame_Kernel := fun m ρ _ => Cert.Kernel.Hand.frame m ρ

/-- So does its reading at the ideal instance. -/
theorem frame_ki : Cert.frame_KernelIdeal := fun m ρ _ => Cert.KernelIdeal.Hand.frame m ρ

/-- The reference is host operations only: its run, the result dropped. -/
theorem frame_r : Cert.frame_ReferenceIdeal := fun m ρ _ =>
  (θ_run Cert.ReferenceIdeal.defs _ _).mono (fun _ h c => (h c).2) (Cert.ReferenceIdeal.Value.run (F := Ideal) m ρ)

/-- The two results are one function of the twelve arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq]
  obtain ⟨h0, h1, h2, h3, h4, h5, h6, h7, h8, h9, h10, h11⟩ := hagree c
  rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
